-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S100000x2 : Shape := ⟨2, ![100000, 2]⟩
abbrev S2x64 : Shape := ⟨2, ![2, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : IVec S2x1600000 32) (main_arg1 : FVec F S100000x2 .f32) (main_arg2 : FVec F S2x64 .f32) (main_arg3 : FVec F S64 .f32) (main_arg4 : FVec F S64x128 .f32) (main_arg5 : FVec F S128 .f32) : IVec S_ 1 :=
  let main_v0 : FVec F S100000x2 .f32 := Host.absf main_arg1
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x64 .f32 := Host.absf main_arg2
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_v13 main_v16
-- ==== Kernel.lean ====
abbrev S2x1600000 : Shape := ⟨2, ![2, 1600000]⟩
abbrev S100000x2 : Shape := ⟨2, ![100000, 2]⟩
abbrev S2x64 : Shape := ⟨2, ![2, 64]⟩
abbrev S64 : Shape := ⟨1, ![64]⟩
abbrev S64x128 : Shape := ⟨2, ![64, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x2 : Shape := ⟨2, ![10000, 2]⟩
abbrev S10000x64 : Shape := ⟨2, ![10000, 64]⟩
abbrev S1700000x64 : Shape := ⟨2, ![1700000, 64]⟩
abbrev S1x64 : Shape := ⟨2, ![1, 64]⟩
abbrev S100000x128 : Shape := ⟨2, ![100000, 128]⟩
abbrev S10000x128 : Shape := ⟨2, ![10000, 128]⟩
abbrev S1700000x128 : Shape := ⟨2, ![1700000, 128]⟩
abbrev S1x128 : Shape := ⟨2, ![1, 128]⟩

abbrev nBuf : Space → Nat
  | .hbm => 79
  | .vmem => 16
  | .smem => 0
  | _ => 0

abbrev bufTy : (tb : Table) → Fin (tcTables nBuf tb) → BufTy
  | .hbm, ⟨0, _⟩ => ⟨S2x1600000, .i32⟩
  | .hbm, ⟨1, _⟩ => ⟨S100000x2, .f32⟩
  | .hbm, ⟨2, _⟩ => ⟨S2x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x64, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x64, .f32⟩
  | .hbm, ⟨52, _⟩ => ⟨S1700000x1, .f32⟩
  | .hbm, ⟨53, _⟩ => ⟨S1700000x64, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x128, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x128, .f32⟩
  | .hbm, ⟨70, _⟩ => ⟨S1700000x1, .f32⟩
  | .hbm, ⟨71, _⟩ => ⟨S1700000x128, .f32⟩
  | .hbm, ⟨72, _⟩ => ⟨S1700000x128, .f32⟩
  | .hbm, ⟨73, _⟩ => ⟨S_, .f32⟩
  | .hbm, ⟨74, _⟩ => ⟨S100000x128, .f32⟩
  | .hbm, ⟨75, _⟩ => ⟨S1700000x1, .i32⟩
  | .hbm, ⟨76, _⟩ => ⟨S100000x128, .f32⟩
  | .hbm, ⟨77, _⟩ => ⟨S1x128, .f32⟩
  | .hbm, ⟨78, _⟩ => ⟨S100000x128, .f32⟩
  | .local _ .vmem, ⟨0, _⟩ => ⟨S10000x2, .f32⟩
  | .local _ .vmem, ⟨1, _⟩ => ⟨S10000x2, .f32⟩
  | .local _ .vmem, ⟨2, _⟩ => ⟨S2x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x2_S10000x2_0_0 : ∀ a, (![0, 0] : Fin 2 → Nat) a + S10000x2.size a ≤ S10000x2.size a
  h_S10000x2 : 0 < S10000x2.numel
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x2_S2x64_S10000x64_1_0_0_1_n_n_wf : DotDims.WF S10000x2 S2x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x128_S10000x128_1_0_0_1_n_n_wf : DotDims.WF S10000x64 S64x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .f32 = 32 ∨ (Rect.block (s := S100000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x2_S2x64_S10000x64_1_0_0_1_n_n : DotDims S10000x2 S2x64 S10000x64 where
  lhsContracting := [1]
  rhsContracting := [0]
  lhsNonContracting := [0]
  rhsNonContracting := [1]
  lhsBatch := []
  rhsBatch := []
  wf := dot_S10000x2_S2x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg1) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x1600000 : Shape := ⟨2, ![2, 1600000]⟩
abbrev S100000x2 : Shape := ⟨2, ![100000, 2]⟩
abbrev S2x64 : Shape := ⟨2, ![2, 64]⟩
abbrev S64 : Shape := ⟨1, ![64]⟩
abbrev S64x128 : Shape := ⟨2, ![64, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x128 : Shape := ⟨2, ![100000, 128]⟩
abbrev S1700000x128 : Shape := ⟨2, ![1700000, 128]⟩
abbrev S1x128 : Shape := ⟨2, ![1, 128]⟩

abbrev nBuf : Space → Nat
  | .hbm => 98
  | .vmem => 0
  | .smem => 0
  | _ => 0

abbrev bufTy : (tb : Table) → Fin (tcTables nBuf tb) → BufTy
  | .hbm, ⟨0, _⟩ => ⟨S2x1600000, .i32⟩
  | .hbm, ⟨1, _⟩ => ⟨S100000x2, .f32⟩
  | .hbm, ⟨2, _⟩ => ⟨S2x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x64, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x64, .f32⟩
  | .hbm, ⟨52, _⟩ => ⟨S1700000x1, .f32⟩
  | .hbm, ⟨53, _⟩ => ⟨S1700000x64, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S_, .f32⟩
  | .hbm, ⟨64, _⟩ => ⟨S100000x64, .f32⟩
  | .hbm, ⟨65, _⟩ => ⟨S100000x64, .i1⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x128, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x1, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S_, .f32⟩
  | .hbm, ⟨92, _⟩ => ⟨S100000x128, .f32⟩
  | .hbm, ⟨93, _⟩ => ⟨S100000x128, .i1⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S100000x128, .f32⟩
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_v64 : Ref sig .tc := ⟨.hbm, 97, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x2_S2x64_S100000x64_1_0_0_1_n_n_wf : DotDims.WF S100000x2 S2x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x2_S2x64_S100000x64_1_0_0_1_n_n : DotDims S100000x2 S2x64 S100000x64 where
  lhsContracting := [1]
  rhsContracting := [0]
  lhsNonContracting := [0]
  rhsNonContracting := [1]
  lhsBatch := []
  rhsBatch := []
  wf := dot_S100000x2_S2x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  The leaky rectifier of slope 0.01 (the binary literal nearest to it), as one function of a number and as the
  array operation the host program spells: compare with zero, multiply by the slope, choose. Applied to an array it
  acts entry by entry.
-/
import Idealize.ShloMosaic.PureOps
import Idealize.ShloMosaic.PureOps.Ideal

noncomputable section

namespace Cert.Spec

open Idealize.ShloMosaic

variable {F : FTy → Type} [FloatOps F]

/-- x where x ≥ 0, slope · x elsewhere. -/
def lrelu1 (x : F .f32) : F .f32 :=
  Scalar.select (FloatOps.cmpf .oge x (FloatOps.ofBits .f32 0x00000000#32)) x
    (FloatOps.mulf (FloatOps.ofBits .f32 0x3C23D70A#32) x)

/-- The same over an array, in the host's spelling: the zero and the slope broadcast from rank 0. -/
def lreluT (S : Shape) (h0 : (⟨0, ![]⟩ : Shape).BroadcastsInDim S (![] : Fin 0 → Fin S.rank)) (x : FVec F S .f32) :
    FVec F S .f32 :=
  select (cmpf .oge x (broadcastInDim S ![] h0 (constant (⟨0, ![]⟩ : Shape) .f32 0x00000000#32))) x
    (mulf (broadcastInDim S ![] h0 (constant (⟨0, ![]⟩ : Shape) .f32 0x3C23D70A#32)) x)

/-- Entry by entry the array operation is the scalar one. -/
theorem lreluT_apply (S : Shape) (h0 : (⟨0, ![]⟩ : Shape).BroadcastsInDim S (![] : Fin 0 → Fin S.rank))
    (x : FVec F S .f32) (i : S.Idx) : lreluT S h0 x i = lrelu1 (x i) := rfl

end Cert.Spec

end
-- ==== Proof.Chain.lean ====
/-
  The graph side of the two-layer network, as functions of arrays. The edge list E is a 2 × 1600000 table of node
  numbers; every node gets a self-loop, so there are 1700000 edges with sources 'srcOf E' and targets 'dstOf E'. A node
  number is used as an index after negative numbers are wrapped once by the node count ('wrapIdx'). The in-degree of a
  node is the number of edges that point at it (a scatter-add of ones), 'degInv' is 1/sqrt(max(degree, 1)) and the
  weight of an edge is degInv(source) · degInv(target) ('normOf'). One round of message passing over features h
  ('agg64', 'agg128') gathers the source's feature row for every edge, scales it by the edge's weight and adds it into
  the target's row. The network ('outOf') is: x · W1, one round, bias and leaky rectifier, · W2, one round, bias and
  leaky rectifier.
-/
import proofs.«119203_j26809185861879_1_alg».proof.KernelIdeal
import proofs.«119203_j26809185861879_1_alg».proof.Proof.Gen.KernelIdeal
import proofs.«119203_j26809185861879_1_alg».proof.Proof.Spec

noncomputable section

namespace Cert.Chain

open Idealize.ShloMosaic Cert.KernelIdeal Cert.KernelIdeal.Facts₀

variable {F : FTy → Type} [FloatOps F]

/-- Row 0 of the edge table, then the node numbers 0 … 99999 (the self-loops' sources). -/
def srcOf (E : IVec S2x1600000 32) : IVec S1700000 32 :=
  concatenate S1700000 0
    [⟨S1600000, shapeCast S1600000 (extractStridedSlice S1x1600000 ![0, 0] E slices_S2x1600000_S1x1600000_0_0) shapeCasts_S1x1600000_S1600000⟩,
     ⟨S100000, iotaInDim S100000 32 0⟩] concatenates_S1600000_S100000_S1700000_d0

/-- Row 1 of the edge table, then the node numbers 0 … 99999 (the self-loops' targets). -/
def dstOf (E : IVec S2x1600000 32) : IVec S1700000 32 :=
  concatenate S1700000 0
    [⟨S1600000, shapeCast S1600000 (extractStridedSlice S1x1600000 ![1, 0] E slices_S2x1600000_S1x1600000_1_0) shapeCasts_S1x1600000_S1600000⟩,
     ⟨S100000, iotaInDim S100000 32 0⟩] concatenates_S1600000_S100000_S1700000_d0

/-- A negative node number n is read as n + 100000. -/
def wrapIdx (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- One number per edge, as a one-column table. -/
def col {α : Type} (s : S1700000.Idx → α) : S1700000x1.Idx → α :=
  broadcastInDim S1700000x1 ![0] bcast_S1700000_S1700000x1_0 s

/-- 1/sqrt(max(in-degree, 1)) of every node. -/
def degInv (dst : IVec S1700000 32) : FVec F S100000 .f32 :=
  Host.rsqrt (maximumf
    (Host.scatterAdd scatter_S100000_S1700000x1_S1700000_n_0_0_1
      (broadcastInDim S100000 ![] bcast_S_S100000 (constant S_ .f32 0x00000000#32)) (col dst)
      (broadcastInDim S1700000 ![] bcast_S_S1700000 (constant S_ .f32 0x3F800000#32)))
    (broadcastInDim S100000 ![] bcast_S_S100000 (constant S_ .f32 0x3F800000#32)))

/-- The weight of every edge: degInv(source) · degInv(target). -/
def normOf (src dst : IVec S1700000 32) : FVec F S1700000 .f32 :=
  mulf (Host.gather gather_S100000_S1700000x1_S1700000_n_0_n_n_0_1_1 (degInv (F := F) dst) (col (wrapIdx src)))
    (Host.gather gather_S100000_S1700000x1_S1700000_n_0_n_n_0_1_1 (degInv (F := F) dst) (col (wrapIdx dst)))

/-- One round over 64 features: target row += weight · source row, from zero. -/
def agg64 (h : FVec F S100000x64 .f32) (src dst : IVec S1700000 32) (nrm : FVec F S1700000 .f32) : FVec F S100000x64 .f32 :=
  Host.scatterAdd scatter_S100000x64_S1700000x1_S1700000x64_1_0_0_1
    (broadcastInDim S100000x64 ![] bcast_S_S100000x64 (constant S_ .f32 0x00000000#32)) (col dst)
    (mulf (Host.gather gather_S100000x64_S1700000x1_S1700000x64_1_0_n_n_0_1_164 h (col (wrapIdx src)))
      (broadcastInDim S1700000x64 ![0, 1] bcast_S1700000x1_S1700000x64_0_1 (col nrm)))

/-- One round over 128 features. -/
def agg128 (h : FVec F S100000x128 .f32) (src dst : IVec S1700000 32) (nrm : FVec F S1700000 .f32) : FVec F S100000x128 .f32 :=
  Host.scatterAdd scatter_S100000x128_S1700000x1_S1700000x128_1_0_0_1
    (broadcastInDim S100000x128 ![] bcast_S_S100000x128 (constant S_ .f32 0x00000000#32)) (col dst)
    (mulf (Host.gather gather_S100000x128_S1700000x1_S1700000x128_1_0_n_n_0_1_1128 h (col (wrapIdx src)))
      (broadcastInDim S1700000x128 ![0, 1] bcast_S1700000x1_S1700000x128_0_1 (col nrm)))

/-- Bias row added to every row, then the leaky rectifier (64 features). -/
def act64 (hb : S1x64.BroadcastsInDim S100000x64 (![0, 1] : Fin 2 → Fin S100000x64.rank))
    (a : FVec F S100000x64 .f32) (brow : FVec F S1x64 .f32) : FVec F S100000x64 .f32 :=
  Cert.Spec.lreluT S100000x64 bcast_S_S100000x64 (addf a (broadcastInDim S100000x64 ![0, 1] hb brow))

/-- Bias row added to every row, then the leaky rectifier (128 features). -/
def act128 (hb : S1x128.BroadcastsInDim S100000x128 (![0, 1] : Fin 2 → Fin S100000x128.rank))
    (a : FVec F S100000x128 .f32) (brow : FVec F S1x128 .f32) : FVec F S100000x128 .f32 :=
  Cert.Spec.lreluT S100000x128 bcast_S_S100000x128 (addf a (broadcastInDim S100000x128 ![0, 1] hb brow))

/-- The network over given edge sources and targets, the two bias vectors given as one-row tables. -/
def netOf (d0 : DotDims S100000x2 S2x64 S100000x64) (d1 : DotDims S100000x64 S64x128 S100000x128)
    (hb64 : S1x64.BroadcastsInDim S100000x64 (![0, 1] : Fin 2 → Fin S100000x64.rank))
    (hb128 : S1x128.BroadcastsInDim S100000x128 (![0, 1] : Fin 2 → Fin S100000x128.rank))
    (src dst : IVec S1700000 32) (X : FVec F S100000x2 .f32) (W1 : FVec F S2x64 .f32) (b1row : FVec F S1x64 .f32)
    (W2 : FVec F S64x128 .f32) (b2row : FVec F S1x128 .f32) : FVec F S100000x128 .f32 :=
  act128 hb128
    (agg128
      (Host.dotGeneral d1 none
        (act64 hb64 (agg64 (Host.dotGeneral d0 none X W1) src dst (normOf src dst)) b1row) W2)
      src dst (normOf src dst))
    b2row

/-- The whole network of the edge table and the five float arrays. -/
def outOf (d0 : DotDims S100000x2 S2x64 S100000x64) (d1 : DotDims S100000x64 S64x128 S100000x128)
    (hb64 : S1x64.BroadcastsInDim S100000x64 (![0, 1] : Fin 2 → Fin S100000x64.rank))
    (hb128 : S1x128.BroadcastsInDim S100000x128 (![0, 1] : Fin 2 → Fin S100000x128.rank))
    (E : IVec S2x1600000 32) (X : FVec F S100000x2 .f32) (W1 : FVec F S2x64 .f32) (b1row : FVec F S1x64 .f32)
    (W2 : FVec F S64x128 .f32) (b2row : FVec F S1x128 .f32) : FVec F S100000x128 .f32 :=
  netOf d0 d1 hb64 hb128 (srcOf E) (dstOf E) X W1 b1row W2 b2row

end Cert.Chain

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.Region0.lean ====
/-
  The first launch: ten row blocks of x, each multiplied by W1. After it the result array holds the plain matrix
  product x · W1, entry (r, c) the sum over k of x(r, k) · W1(k, c): block t of the output is rows 10000·t … of it.
-/
import proofs.«119203_j26809185861879_1_alg».proof.Proof.Gen.KernelIdeal.Frame
import proofs.«119203_j26809185861879_1_alg».proof.Proof.Spec
import proofs.«119203_j26809185861879_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen
open Idealize.ShloMosaic.ValueIdx (ix2 eq_ix2)
open scoped BigOperators

variable (V : (c : Dev nD) → (b : Ref sig .tc) → Buf (Elt Ideal) ((c : Thread nD τ).loc b))

/-- A whole-block access starts at row 0, column 0. -/
theorem zero_offsets : (![0, 0] : Fin 2 → Nat) = fun _ => 0 := funext fun a => by fin_cases a <;> rfl

/-- The body's product at entry (p, q) of a block: the sum over k of x(p, k) · w(k, q). -/
theorem block_product_at (x0 : Vec Ideal S10000x2 .f32) (x1 : Vec Ideal S2x64 .f32) (p : Fin 10000) (q : Fin 64) :
    (k0_pay1 (F := Ideal) x0 x1 : FVec Ideal S10000x64 .f32) (ix2 p q) = ∑ k : Fin 2, x0 (ix2 p k) * x1 (ix2 k q) := by
  unfold k0_pay1
  exact Cert.LibDot.matmul_zero_at dot_S10000x2_S2x64_S10000x64_1_0_0_1_n_n rfl rfl rfl rfl rfl rfl none
    (truncf .bf16 x0 bitsLt_bf16_f32 : FVec Ideal S10000x2 .bf16) (truncf .bf16 x1 bitsLt_bf16_f32 : FVec Ideal S2x64 .bf16) p q

/-- The block indices over the grid: at point t the row-blocked windows are at row block t, column block 0; the
    small operand is whole. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the x block at point t is entry (10000·t + p, k) of x. -/
theorem x_block_at (c : Dev nD) (t : Fin cfg0.N) (p : Fin 10000) (k : Fin 2) (r : Fin 100000)
    (hrow : r.val = 10000 * t.val + p.val) :
    (iblk0 V c 0 t : Vec Ideal S10000x2 .f32) (ix2 p k) = (V c main_arg1 : FVec Ideal S100000x2 .f32) (ix2 r k) := by
  obtain ⟨e0, e1, -⟩ := index_facts t
  unfold iblk0
  rw [View.read_apply]
  show V c main_arg1 _ = V c main_arg1 _
  congr 1
  funext a
  apply Fin.ext
  match a with
  | ⟨0, _⟩ => show win0_0.index t 0 * 10000 + 1 * p.val = r.val; rw [e0, hrow]; omega
  | ⟨1, _⟩ => show win0_0.index t 1 * 2 + 1 * k.val = k.val; rw [e1]; omega

/-- The W1 block at any point is W1. -/
theorem w_block_at (c : Dev nD) (t : Fin cfg0.N) (k : Fin 2) (q : Fin 64) :
    (iblk0 V c 1 t : Vec Ideal S2x64 .f32) (ix2 k q) = (V c main_arg2 : FVec Ideal S2x64 .f32) (ix2 k q) := by
  obtain ⟨-, -, e0, e1, -⟩ := index_facts t
  unfold iblk0
  rw [View.read_apply]
  show V c main_arg2 _ = V c main_arg2 _
  congr 1
  funext a
  apply Fin.ext
  match a with
  | ⟨0, _⟩ => show win0_1.index t 0 * 2 + 1 * k.val = k.val; rw [e0]; omega
  | ⟨1, _⟩ => show win0_1.index t 1 * 64 + 1 * q.val = q.val; rw [e1]; omega

/-- Entry (p, q) of the output block at point t sits at entry (10000·t + p, q) of the output array. -/
theorem out_block_emb (t : Fin cfg0.N) (p : Fin 10000) (q : Fin 64) (r : Fin 100000)
    (hrow : r.val = 10000 * t.val + p.val) :
    ((cfg0.win 2).blk t).view.emb (ix2 p q) = (ix2 r q : S100000x64.Idx) := by
  obtain ⟨-, -, -, -, e0, e1⟩ := index_facts t
  funext a
  apply Fin.ext
  match a with
  | ⟨0, _⟩ => show win0_2.index t 0 * 10000 + 1 * p.val = r.val; rw [e0, hrow]; omega
  | ⟨1, _⟩ => show win0_2.index t 1 * 64 + 1 * q.val = q.val; rw [e1]; omega

/-- WHAT POINT t WRITES BACK is block t of the host's product of the arrays the launch found. -/
theorem flushed_eq (c : Dev nD) (d : DotDims S100000x2 S2x64 S100000x64)
    (hl : d.lhsContracting = [1]) (hr : d.rhsContracting = [0]) (hln : d.lhsNonContracting = [0])
    (hrn : d.rhsNonContracting = [1]) (hlb : d.lhsBatch = []) (hrb : d.rhsBatch = []) (t : Fin cfg0.N) :
    (dat0 (F := Ideal) V c).flushed 2 t = ((cfg0.win 2).blk t).view.read (Elt Ideal)
      (Host.dotGeneral (F := Ideal) (φ₁ := .f32) (φ₂ := .f32) d none (V c main_arg1 : FVec Ideal S100000x2 .f32) (V c main_arg2 : FVec Ideal S2x64 .f32)) := by
  show (cfg0.win 2).cut (grid0.coords t) ((dat0 (F := Ideal) V c).after 2 t) = _
  rw [after0_2]
  unfold out0_2
  rw [View.canon_unit_zero zero_offsets]
  simp only [View.ld_unit_zero (S := S10000x2) zero_offsets, View.ld_unit_zero (S := S2x64) zero_offsets]
  funext j
  obtain ⟨p, q, rfl⟩ : ∃ (p : Fin 10000) (q : Fin 64), j = ix2 p q := ⟨j 0, j 1, eq_ix2 j⟩
  have hN : cfg0.N = 10 := N_0
  have ht : t.val < 10 := hN ▸ t.isLt
  have hrow : 10000 * t.val + p.val < 100000 := by have := p.isLt; omega
  rw [View.read_apply, out_block_emb t p q ⟨10000 * t.val + p.val, hrow⟩ rfl]
  refine (block_product_at (iblk0 V c 0 t) (iblk0 V c 1 t) p q).trans ?_
  refine Eq.trans ?_ (Cert.LibDot.dotGeneral_at d hl hr hln hrn hlb hrb none .single
    (V c main_arg1 : FVec Ideal S100000x2 .f32) (V c main_arg2 : FVec Ideal S2x64 .f32) ⟨10000 * t.val + p.val, hrow⟩ q).symm
  refine Finset.sum_congr rfl fun k _ => ?_
  rw [x_block_at V c t p k ⟨10000 * t.val + p.val, hrow⟩ rfl, w_block_at V c t k q]

/-- An index of the array is in point t's block iff each coordinate is in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- Every entry of the output array is in the block of the point its row falls in: row r in block r / 10000. -/
theorem covered (i : S100000x64.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 64 := (i 1).isLt
  have ht : (i 0).val / 10000 < cfg0.N := by rw [hN]; omega
  obtain ⟨-, -, -, -, e0, e1⟩ := index_facts ⟨(i 0).val / 10000, ht⟩
  refine ⟨⟨(i 0).val / 10000, ht⟩, flush0_2 _, ?_⟩
  rw [mem_block]
  intro a
  match a with
  | ⟨0, _⟩ => show win0_2.index ⟨(i 0).val / 10000, ht⟩ (0 : Fin 2) * 10000 ≤ (i 0).val ∧ (i 0).val < win0_2.index ⟨(i 0).val / 10000, ht⟩ (0 : Fin 2) * 10000 + 10000; rw [e0]; show (i 0).val / 10000 * 10000 ≤ (i 0).val ∧ (i 0).val < (i 0).val / 10000 * 10000 + 10000; omega
  | ⟨1, _⟩ => show win0_2.index ⟨(i 0).val / 10000, ht⟩ (1 : Fin 2) * 64 ≤ (i 1).val ∧ (i 1).val < win0_2.index ⟨(i 0).val / 10000, ht⟩ (1 : Fin 2) * 64 + 64; rw [e1]; omega

/-- After the first launch its output array is the host's product of the two input arrays as the launch found them. -/
theorem final0 (c : Dev nD) (d : DotDims S100000x2 S2x64 S100000x64)
    (hl : d.lhsContracting = [1]) (hr : d.rhsContracting = [0]) (hln : d.lhsNonContracting = [0])
    (hrn : d.rhsNonContracting = [1]) (hlb : d.lhsBatch = []) (hrb : d.rhsBatch = []) :
    ((dat0 (F := Ideal) V c).arrAt 2 cfg0.N : FVec Ideal S100000x64 .f32)
      = Host.dotGeneral (F := Ideal) (φ₁ := .f32) (φ₂ := .f32) d none (V c main_arg1 : FVec Ideal S100000x2 .f32) (V c main_arg2 : FVec Ideal S2x64 .f32) :=
  (dat0 (F := Ideal) V c).arrAt_eq_of_cover 2
    (Host.dotGeneral (F := Ideal) (φ₁ := .f32) (φ₂ := .f32) d none (V c main_arg1 : FVec Ideal S100000x2 .f32) (V c main_arg2 : FVec Ideal S2x64 .f32))
    (fun t _ => flushed_eq V c d hl hr hln hrn hlb hrb t) covered

end Cert.KernelIdeal.Region0

end
-- ==== Proof.Region1.lean ====
/-
  The second launch: ten row blocks of the aggregated features; each block gets the bias row added, the leaky
  rectifier applied, and is multiplied by W2. After it the result array is the host's product of
  lrelu(a + b) with W2, where b is the one-row bias broadcast down the rows.
-/
import proofs.«119203_j26809185861879_1_alg».proof.Proof.Gen.KernelIdeal.Frame
import proofs.«119203_j26809185861879_1_alg».proof.Proof.Spec
import proofs.«119203_j26809185861879_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx
open scoped BigOperators

variable (V : (c : Dev nD) → (b : Ref sig .tc) → Buf (Elt Ideal) ((c : Thread nD τ).loc b))

/-- The biased block at entry (p, k): the bias row is read at its one row. -/
theorem biased_at (x0 : FVec Ideal S10000x64 .f32) (x1 : FVec Ideal S1x64 .f32) (p : Fin 10000) (k : Fin 64) :
    addf (F := Ideal) (φ := .f32) (shapeCast S10000x64 x0 shapeCasts_S10000x64_S10000x64)
        (broadcastTo S10000x64 (shapeCast S1x64 x1 shapeCasts_S1x64_S1x64) broadcasts_S1x64_S10000x64) (ix2 p k)
      = x0 (ix2 p k) + x1 (ix2 0 k) := by
  rw [shapeCast_self, shapeCast_self]
  show x0 (ix2 p k) + broadcastTo S10000x64 x1 broadcasts_S1x64_S10000x64 (ix2 p k) = _
  rw [broadcastTo_apply x1 broadcasts_S1x64_S10000x64 (ix2 p k) (ix2 0 k)
    (fun a => by match a with | ⟨0, _⟩ => rfl | ⟨1, _⟩ => rfl)]

/-- The block's arithmetic at entry (p, q). -/
theorem pay_at (x0 : Vec Ideal S10000x64 .f32) (x1 : Vec Ideal S1x64 .f32) (x2 : Vec Ideal S64x128 .f32)
    (p : Fin 10000) (q : Fin 128) :
    k1_pay1 (F := Ideal) x0 x1 x2 (ix2 p q)
      = ∑ k : Fin 64, Cert.Spec.lrelu1 (F := Ideal) (x0 (ix2 p k) + x1 (ix2 0 k)) * x2 (ix2 k q) := by
  unfold k1_pay1
  refine (Cert.LibDot.matmul_zero_at dot_S10000x64_S64x128_S10000x128_1_0_0_1_n_n rfl rfl rfl rfl rfl rfl none _ _ p q).trans ?_
  refine Finset.sum_congr rfl fun k _ => ?_
  exact congrArg (fun z => Cert.Spec.lrelu1 (F := Ideal) z * x2 (ix2 k q)) (biased_at x0 x1 p k)

/-- The host's spelling of what the launch computes, as one function of the three arrays it reads. -/
abbrev hostOut (d : DotDims S100000x64 S64x128 S100000x128)
    (h0 : S_.BroadcastsInDim S100000x64 (![] : Fin 0 → Fin S100000x64.rank))
    (hb : S1x64.BroadcastsInDim S100000x64 (![0, 1] : Fin 2 → Fin S100000x64.rank))
    (A : FVec Ideal S100000x64 .f32) (B : FVec Ideal S1x64 .f32) (W : FVec Ideal S64x128 .f32) :
    FVec Ideal S100000x128 .f32 :=
  Host.dotGeneral (F := Ideal) (φ₁ := .f32) (φ₂ := .f32) d none
    (Cert.Spec.lreluT S100000x64 h0 (addf A (broadcastInDim S100000x64 ![0, 1] hb B))) W

/-- The host's product at entry (r, q). -/
theorem hostOut_at (d : DotDims S100000x64 S64x128 S100000x128)
    (hl : d.lhsContracting = [1]) (hr : d.rhsContracting = [0]) (hln : d.lhsNonContracting = [0])
    (hrn : d.rhsNonContracting = [1]) (hlb : d.lhsBatch = []) (hrb : d.rhsBatch = [])
    (h0 : S_.BroadcastsInDim S100000x64 (![] : Fin 0 → Fin S100000x64.rank))
    (hb : S1x64.BroadcastsInDim S100000x64 (![0, 1] : Fin 2 → Fin S100000x64.rank))
    (A : FVec Ideal S100000x64 .f32) (B : FVec Ideal S1x64 .f32) (W : FVec Ideal S64x128 .f32)
    (r : Fin 100000) (q : Fin 128) :
    hostOut d h0 hb A B W (ix2 r q)
      = ∑ k : Fin 64, Cert.Spec.lrelu1 (F := Ideal) (A (ix2 r k) + B (ix2 0 k)) * W (ix2 k q) := by
  refine (Cert.LibDot.dotGeneral_at d hl hr hln hrn hlb hrb none .single _ W r q).trans ?_
  refine Finset.sum_congr rfl fun k _ => ?_
  rw [Cert.Spec.lreluT_apply]
  show Cert.Spec.lrelu1 (F := Ideal) (A (ix2 r k) + broadcastInDim S100000x64 ![0, 1] hb B (ix2 r k)) * W (ix2 k q) = _
  rw [broadcastInDim_apply ![0, 1] hb B (ix2 r k) (ix2 0 k)
    (fun a => by match a with | ⟨0, _⟩ => rfl | ⟨1, _⟩ => rfl)]

/-- The windows' block indices at grid point t: the row-blocked windows sit at block row t, the small operands at
    their one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block t of the aggregated features at (p, k) is the array at row 10000·t + p. -/
theorem ablk_at (c : Dev nD) (t : Fin cfg1.N) (p : Fin 10000) (k : Fin 64) (r : Fin 100000)
    (hr : r.val = 10000 * t.val + p.val) :
    (iblk1 V c 0 t : Vec Ideal S10000x64 .f32) (ix2 p k) = (V c main_v42 : FVec Ideal S100000x64 .f32) (ix2 r k) := by
  obtain ⟨e0, e1, -⟩ := idx1 t
  unfold iblk1
  rw [View.read_apply]
  show V c main_v42 _ = V c main_v42 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- The bias row's block is the whole row. -/
theorem bblk_eq (c : Dev nD) (t : Fin cfg1.N) :
    (iblk1 V c 1 t : Vec Ideal S1x64 .f32) = (V c main_v43 : FVec Ideal S1x64 .f32) := by
  obtain ⟨-, -, e0, e1, -⟩ := idx1 t
  funext j
  unfold iblk1
  rw [View.read_apply]
  show V c main_v43 _ = V c main_v43 _
  congr 1
  funext a
  apply Fin.ext
  match a with
  | ⟨0, _⟩ => show win1_1.index t (0 : Fin 2) * 1 + 1 * (j 0).val = (j 0).val; rw [e0]; omega
  | ⟨1, _⟩ => show win1_1.index t (1 : Fin 2) * 64 + 1 * (j 1).val = (j 1).val; rw [e1]; omega

/-- The weights' block is the whole matrix. -/
theorem wblk_eq (c : Dev nD) (t : Fin cfg1.N) :
    (iblk1 V c 2 t : Vec Ideal S64x128 .f32) = (V c main_arg4 : FVec Ideal S64x128 .f32) := by
  obtain ⟨-, -, -, -, e0, e1, -⟩ := idx1 t
  funext j
  unfold iblk1
  rw [View.read_apply]
  show V c main_arg4 _ = V c main_arg4 _
  congr 1
  funext a
  apply Fin.ext
  match a with
  | ⟨0, _⟩ => show win1_2.index t (0 : Fin 2) * 64 + 1 * (j 0).val = (j 0).val; rw [e0]; omega
  | ⟨1, _⟩ => show win1_2.index t (1 : Fin 2) * 128 + 1 * (j 1).val = (j 1).val; rw [e1]; omega

/-- The zero offsets of a whole-block access, as the constant function. -/
theorem hz : (![0, 0] : Fin 2 → Nat) = fun _ => 0 := funext fun a => by fin_cases a <;> rfl

/-- Entry (p, q) of the output's block t sits in the array at row 10000·t + p. -/
theorem oblk_emb (t : Fin cfg1.N) (p : Fin 10000) (q : Fin 128) (r : Fin 100000)
    (hr : r.val = 10000 * t.val + p.val) :
    ((cfg1.win 3).blk t).view.emb (ix2 p q) = (ix2 r q : S100000x128.Idx) := by
  obtain ⟨-, -, -, -, -, -, e0, e1⟩ := idx1 t
  funext a
  apply Fin.ext
  match a with
  | ⟨0, _⟩ => show win1_3.index t (0 : Fin 2) * 10000 + 1 * p.val = r.val; rw [e0, hr]; omega
  | ⟨1, _⟩ => show win1_3.index t (1 : Fin 2) * 128 + 1 * q.val = q.val; rw [e1]; omega

/-- What grid point t writes back is block t of the host's product. -/
theorem flushed_eq (c : Dev nD) (d : DotDims S100000x64 S64x128 S100000x128)
    (hl : d.lhsContracting = [1]) (hr : d.rhsContracting = [0]) (hln : d.lhsNonContracting = [0])
    (hrn : d.rhsNonContracting = [1]) (hlb : d.lhsBatch = []) (hrb : d.rhsBatch = [])
    (h0 : S_.BroadcastsInDim S100000x64 (![] : Fin 0 → Fin S100000x64.rank))
    (hb : S1x64.BroadcastsInDim S100000x64 (![0, 1] : Fin 2 → Fin S100000x64.rank)) (t : Fin cfg1.N) :
    (dat1 (F := Ideal) V c).flushed 3 t
      = ((cfg1.win 3).blk t).view.read (Elt Ideal)
          (hostOut d h0 hb (V c main_v42) (V c main_v43) (V c main_arg4)) := by
  show (cfg1.win 3).cut (grid1.coords t) ((dat1 (F := Ideal) V c).after 3 t) = _
  rw [after1_3]
  unfold out1_3
  rw [View.canon_unit_zero hz]
  simp only [View.ld_unit_zero (S := S10000x64) hz, View.ld_unit_zero (S := S1x64) hz, View.ld_unit_zero (S := S64x128) hz]
  rw [bblk_eq, wblk_eq]
  funext j
  obtain ⟨p, q, rfl⟩ : ∃ (p : Fin 10000) (q : Fin 128), j = ix2 p q := ⟨j 0, j 1, eq_ix2 j⟩
  have ht : t.val < 10 := lt_of_lt_of_eq t.isLt N_1
  rw [View.read_apply, oblk_emb t p q ⟨10000 * t.val + p.val, by have := p.isLt; omega⟩ rfl,
    hostOut_at d hl hr hln hrn hlb hrb h0 hb]
  refine (pay_at (iblk1 V c 0 t) (V c main_v43) (V c main_arg4) p q).trans ?_
  refine Finset.sum_congr rfl fun k _ => ?_
  rw [ablk_at V c t p k ⟨10000 * t.val + p.val, by have := p.isLt; omega⟩ rfl]

/-- An index of the result array is in point t's block iff each coordinate is in the block's range on its axis. -/
theorem mem_oblk (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v44).slice (win1_3.rect t)).set ↔ _
  rw [View.set_slice_whole, Rect.mem_set_unit]
  exact Iff.rfl

/-- Row r of the result array lies in the block of point r / 10000, which writes back. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, -, -, e0, e1⟩ := idx1 t
  refine ⟨t, flush1_3 t, ?_⟩
  rw [mem_oblk]
  intro a
  match a with
  | ⟨0, _⟩ =>
    show win1_3.index t (0 : Fin 2) * 10000 ≤ (i 0).val ∧ (i 0).val < win1_3.index t (0 : Fin 2) * 10000 + 10000
    rw [e0, ht]; omega
  | ⟨1, _⟩ =>
    show win1_3.index t (1 : Fin 2) * 128 ≤ (i 1).val ∧ (i 1).val < win1_3.index t (1 : Fin 2) * 128 + 128
    rw [e1]; omega

/-- After the second launch its output array is the host's product of the rectified, biased input with the weights. -/
theorem final1 (c : Dev nD) (d : DotDims S100000x64 S64x128 S100000x128)
    (hl : d.lhsContracting = [1]) (hr : d.rhsContracting = [0]) (hln : d.lhsNonContracting = [0])
    (hrn : d.rhsNonContracting = [1]) (hlb : d.lhsBatch = []) (hrb : d.rhsBatch = [])
    (h0 : S_.BroadcastsInDim S100000x64 (![] : Fin 0 → Fin S100000x64.rank))
    (hb : S1x64.BroadcastsInDim S100000x64 (![0, 1] : Fin 2 → Fin S100000x64.rank)) :
    ((dat1 (F := Ideal) V c).arrAt 3 cfg1.N : FVec Ideal S100000x128 .f32)
      = Host.dotGeneral (F := Ideal) (φ₁ := .f32) (φ₂ := .f32) d none
          (Cert.Spec.lreluT S100000x64 h0
            (addf (V c main_v42 : FVec Ideal S100000x64 .f32)
              (broadcastInDim S100000x64 ![0, 1] hb (V c main_v43 : FVec Ideal S1x64 .f32))))
          (V c main_arg4 : FVec Ideal S64x128 .f32) :=
  (dat1 (F := Ideal) V c).arrAt_eq_of_cover 3
    (hostOut d h0 hb (V c main_v42) (V c main_v43) (V c main_arg4))
    (fun t _ => flushed_eq V c d hl hr hln hrn hlb hrb h0 hb t) cover

end Cert.KernelIdeal.Region1

end
-- ==== Proof.Region2.lean ====
/-
  The third launch: ten row blocks of the aggregated features; each block gets the bias row added and the leaky
  rectifier applied. After it the result array is lrelu(a + b), b the one-row bias broadcast down the rows.
-/
import proofs.«119203_j26809185861879_1_alg».proof.Proof.Gen.KernelIdeal.Frame
import proofs.«119203_j26809185861879_1_alg».proof.Proof.Spec
import proofs.«119203_j26809185861879_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the ten points: the row-blocked windows sit at block (t, 0), the bias row at (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's stored value at one entry: the rectifier of the entry plus the bias of its column. -/
theorem pay_apply (x0 : Vec Ideal S10000x128 .f32) (x1 : Vec Ideal S1x128 .f32) (j : S10000x128.Idx) (k : S1x128.Idx)
    (hk0 : (k 0).val = 0) (hk1 : (k 1).val = (j 1).val) :
    k2_pay1 (F := Ideal) x0 x1 j = Cert.Spec.lrelu1 (F := Ideal) (x0 j + x1 k) := by
  unfold k2_pay1
  have e0 : shapeCast S10000x128 x0 shapeCasts_S10000x128_S10000x128 j = x0 j :=
    congrFun (shapeCast_self x0 shapeCasts_S10000x128_S10000x128) j
  have e1 : broadcastTo S10000x128 (shapeCast S1x128 x1 shapeCasts_S1x128_S1x128) broadcasts_S1x128_S10000x128 j = x1 k := by
    refine (broadcastTo_apply (shapeCast S1x128 x1 shapeCasts_S1x128_S1x128) broadcasts_S1x128_S10000x128 j k ?_).trans ?_
    · intro a
      match a with
      | ⟨0, _⟩ => exact hk0
      | ⟨1, _⟩ => exact hk1
    · exact congrFun (shapeCast_self x1 shapeCasts_S1x128_S1x128) k
  show Cert.Spec.lrelu1 (F := Ideal) (shapeCast S10000x128 x0 shapeCasts_S10000x128_S10000x128 j
      + broadcastTo S10000x128 (shapeCast S1x128 x1 shapeCasts_S1x128_S1x128) broadcasts_S1x128_S10000x128 j) = _
  rw [e0, e1]

/-- Block t of the aggregated features at (p, q) is the array at row 10000·t + p, column q. -/
theorem blockA_apply (c : Dev nD) (t : Fin cfg2.N) (x : S10000x128.Idx) (k : S100000x128.Idx)
    (hk0 : (k 0).val = 10000 * t.val + (x 0).val) (hk1 : (k 1).val = (x 1).val) :
    (iblk2 (F := Ideal) V c 0 t : Vec Ideal S10000x128 .f32) x = (V c main_v57 : FVec Ideal S100000x128 .f32) k := by
  obtain ⟨e0, e1, -⟩ := index_facts t
  unfold iblk2
  rw [View.read_apply]
  show V c main_v57 _ = V c main_v57 _
  congr 1
  funext a
  apply Fin.ext
  match a with
  | ⟨0, _⟩ => show win2_0.index t 0 * 10000 + 1 * (x 0).val = (k 0).val; rw [e0, hk0]; omega
  | ⟨1, _⟩ => show win2_0.index t 1 * 128 + 1 * (x 1).val = (k 1).val; rw [e1, hk1]; omega

/-- The bias window's block is the whole one-row array at every point. -/
theorem blockB_apply (c : Dev nD) (t : Fin cfg2.N) (x : S1x128.Idx) :
    (iblk2 (F := Ideal) V c 1 t : Vec Ideal S1x128 .f32) x = (V c main_v58 : FVec Ideal S1x128 .f32) x := by
  obtain ⟨-, -, e0, e1, -⟩ := index_facts t
  unfold iblk2
  rw [View.read_apply]
  show V c main_v58 _ = V c main_v58 _
  congr 1
  funext a
  apply Fin.ext
  match a with
  | ⟨0, _⟩ => show win2_1.index t 0 * 1 + 1 * (x 0).val = (x 0).val; rw [e0]; omega
  | ⟨1, _⟩ => show win2_1.index t 1 * 128 + 1 * (x 1).val = (x 1).val; rw [e1]; omega

/-- The host's spelling at one entry: the rectifier of the entry plus the bias of its column. -/
theorem spec_apply (A : FVec Ideal S100000x128 .f32) (B : FVec Ideal S1x128 .f32)
    (h0 : S_.BroadcastsInDim S100000x128 (![] : Fin 0 → Fin S100000x128.rank))
    (hb : S1x128.BroadcastsInDim S100000x128 (![0, 1] : Fin 2 → Fin S100000x128.rank))
    (i : S100000x128.Idx) (k : S1x128.Idx) (hk0 : (k 0).val = 0) (hk1 : (k 1).val = (i 1).val) :
    Cert.Spec.lreluT (F := Ideal) S100000x128 h0 (addf A (broadcastInDim S100000x128 ![0, 1] hb B)) i
      = Cert.Spec.lrelu1 (F := Ideal) (A i + B k) := by
  have e : broadcastInDim S100000x128 ![0, 1] hb B i = B k := by
    refine broadcastInDim_apply ![0, 1] hb B i k ?_
    intro a
    match a with
    | ⟨0, _⟩ => exact hk0
    | ⟨1, _⟩ => exact hk1
  show Cert.Spec.lrelu1 (F := Ideal) (A i + broadcastInDim S100000x128 ![0, 1] hb B i) = _
  rw [e]

/-- The array the launch leaves, as one function of the arrays it finds: the rectifier of the features plus the
    bias row repeated down the rows. -/
abbrev result (c : Dev nD)
    (h0 : S_.BroadcastsInDim S100000x128 (![] : Fin 0 → Fin S100000x128.rank))
    (hb : S1x128.BroadcastsInDim S100000x128 (![0, 1] : Fin 2 → Fin S100000x128.rank)) : FVec Ideal S100000x128 .f32 :=
  Cert.Spec.lreluT (F := Ideal) S100000x128 h0
    (addf (V c main_v57 : FVec Ideal S100000x128 .f32)
      (broadcastInDim S100000x128 ![0, 1] hb (V c main_v58 : FVec Ideal S1x128 .f32)))

/-- What point t writes back is block t of that function. -/
theorem flushed_eq (c : Dev nD)
    (h0 : S_.BroadcastsInDim S100000x128 (![] : Fin 0 → Fin S100000x128.rank))
    (hb : S1x128.BroadcastsInDim S100000x128 (![0, 1] : Fin 2 → Fin S100000x128.rank)) (t : Fin cfg2.N) :
    (dat2 (F := Ideal) V c).flushed 2 t = ((cfg2.win 2).blk t).view.read (Elt Ideal) (result V c h0 hb) := by
  show (cfg2.win 2).cut (grid2.coords t) ((dat2 (F := Ideal) V c).after 2 t) = _
  rw [after2_2]
  unfold out2_2
  rw [View.canon_unit_zero zero_offsets]
  simp only [View.ld_unit_zero (S := S10000x128) zero_offsets, View.ld_unit_zero (S := S1x128) zero_offsets]
  obtain ⟨-, -, -, -, e0, e1⟩ := index_facts t
  funext j
  rw [View.read_apply]
  show k2_pay1 (F := Ideal) (iblk2 V c 0 t) (iblk2 V c 1 t) j = result V c h0 hb (((cfg2.win 2).blk t).view.emb j)
  have hi0 : ((((cfg2.win 2).blk t).view.emb j) 0).val = 10000 * t.val + (j 0).val := by
    show win2_2.index t 0 * 10000 + 1 * (j 0).val = _
    rw [e0]; omega
  have hi1 : ((((cfg2.win 2).blk t).view.emb j) 1).val = (j 1).val := by
    show win2_2.index t 1 * 128 + 1 * (j 1).val = _
    rw [e1]; omega
  refine (pay_apply (iblk2 V c 0 t) (iblk2 V c 1 t) j (ValueIdx.ix2 (0 : Fin 1) (⟨(j 1).val, (j 1).isLt⟩ : Fin 128)) rfl rfl).trans ?_
  refine ((spec_apply (V c main_v57) (V c main_v58) h0 hb (((cfg2.win 2).blk t).view.emb j) (ValueIdx.ix2 (0 : Fin 1) (⟨(j 1).val, (j 1).isLt⟩ : Fin 128)) rfl hi1.symm).trans ?_).symm
  rw [blockA_apply V c t j (((cfg2.win 2).blk t).view.emb j) hi0 hi1, blockB_apply V c t]

/-- An index of the array is in point t's block iff each coordinate is in the block's range on its axis. -/
theorem mem_blk (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v59).slice (win2_2.rect t)).set ↔ _
  rw [View.set_slice_whole, Rect.mem_set_unit]
  exact Iff.rfl

/-- Every entry of the array is in some point's block: row r is in block r / 10000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 10 := N_2
  obtain ⟨t, ht⟩ : ∃ t : Fin cfg2.N, t.val = (i 0).val / 10000 :=
    ⟨⟨(i 0).val / 10000, by show (i 0).val / 10000 < grid2.N; rw [hN]; omega⟩, rfl⟩
  obtain ⟨-, -, -, -, e0, e1⟩ := index_facts t
  refine ⟨t, flush2_2 t, ?_⟩
  rw [mem_blk]
  intro a
  match a with
  | ⟨0, _⟩ =>
    show win2_2.index t 0 * 10000 ≤ (i 0).val ∧ (i 0).val < win2_2.index t 0 * 10000 + 10000
    rw [e0, ht]; omega
  | ⟨1, _⟩ =>
    show win2_2.index t 1 * 128 ≤ (i 1).val ∧ (i 1).val < win2_2.index t 1 * 128 + 128
    rw [e1]; omega

/-- After the third launch its output array is the rectified, biased input. -/
theorem final2 (c : Dev nD)
    (h0 : S_.BroadcastsInDim S100000x128 (![] : Fin 0 → Fin S100000x128.rank))
    (hb : S1x128.BroadcastsInDim S100000x128 (![0, 1] : Fin 2 → Fin S100000x128.rank)) :
    ((dat2 (F := Ideal) V c).arrAt 2 cfg2.N : FVec Ideal S100000x128 .f32)
      = Cert.Spec.lreluT (F := Ideal) S100000x128 h0
          (addf (V c main_v57 : FVec Ideal S100000x128 .f32)
            (broadcastInDim S100000x128 ![0, 1] hb (V c main_v58 : FVec Ideal S1x128 .f32))) :=
  (dat2 (F := Ideal) V c).arrAt_eq_of_cover 2 (result V c h0 hb) (fun t _ => flushed_eq V c h0 hb t) cover

end Cert.KernelIdeal.Region2

end
-- ==== Proof.LibKeepAll.lean ====
/-
  A buffer that no operation of a list writes keeps its contents across the list — for lists that also hold
  operations of any number of operands.
-/
import Idealize.ShloMosaic.Lib.StableHlo.Run

namespace Cert.LibKeepAll

open Idealize.ShloMosaic

/-- Closes `after ops X (devRef b) = X (devRef b)` for a literal list `ops` (named by the identifier given) none of
    whose operations writes `b`: each operation writes one literal reference, and it differs from `b`. -/
macro "kept_all" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide))))

end Cert.LibKeepAll
-- ==== Proof.KernelOut.lean ====
/-
  The kernel program's result array, read through its six stretches: host operations build the edge sources, targets
  and weights; the first launch leaves x · W1; host operations run one round of message passing and lay the bias out
  as a row; the second launch leaves lrelu(· + b1) · W2; host operations run the second round; the third launch leaves
  lrelu(· + b2). Buffers a stretch does not write keep their contents, so every later stretch reads the same sources,
  targets and weights. Composed, the result is 'Cert.Chain.outOf' of the six argument arrays.
-/
import proofs.«119203_j26809185861879_1_alg».proof.Proof.Gen.KernelIdeal.Frame
import proofs.«119203_j26809185861879_1_alg».proof.Proof.Chain
import proofs.«119203_j26809185861879_1_alg».proof.Proof.Region0
import proofs.«119203_j26809185861879_1_alg».proof.Proof.Region1
import proofs.«119203_j26809185861879_1_alg».proof.Proof.Region2
import proofs.«119203_j26809185861879_1_alg».proof.Proof.LibKeepAll
import Idealize.ShloMosaic.Lib.StableHlo.Run

set_option maxRecDepth 16384

noncomputable section

namespace Cert.KernelIdeal.Out

open Idealize.ShloMosaic Idealize.ShloMosaic.TcCoe Idealize.SL.Sem Idealize.ShloMosaic.StableHlo
open Cert.KernelIdeal Cert.KernelIdeal.Gen Cert.KernelIdeal.Facts₀ Cert.Chain Cert.LibKeepAll

variable (m : (ℓ : Loc nD τ sig) → Buf (Elt Ideal) ℓ) (ρ : Dev nD → PrngReg) (c : Dev nD)

/-! ## After the first stretch of host operations: sources, targets, weights; the arguments untouched -/

theorem s1_src : W1 m ρ c (Proc.devRef .tc main_v3) = srcOf (m ((c : Thread nD τ).loc main_arg0)) := by
  show StableHlo.after hostOps0 (W0 m ρ c) _ = _
  dsimp only [hostOps0]
  after_results_simp
  rfl

theorem s1_dst : W1 m ρ c (Proc.devRef .tc main_v6) = dstOf (m ((c : Thread nD τ).loc main_arg0)) := by
  show StableHlo.after hostOps0 (W0 m ρ c) _ = _
  dsimp only [hostOps0]
  after_results_simp
  rfl

theorem s1_nrm : W1 m ρ c (Proc.devRef .tc main_v28)
    = normOf (F := Ideal) (srcOf (m ((c : Thread nD τ).loc main_arg0))) (dstOf (m ((c : Thread nD τ).loc main_arg0))) := by
  show StableHlo.after hostOps0 (W0 m ρ c) _ = _
  dsimp only [hostOps0]
  after_results_simp
  rfl

theorem s1_arg1 : W1 m ρ c (Proc.devRef .tc main_arg1) = m ((c : Thread nD τ).loc main_arg1) := by
  show StableHlo.after hostOps0 (W0 m ρ c) _ = W0 m ρ c _
  kept_all hostOps0
theorem s1_arg2 : W1 m ρ c (Proc.devRef .tc main_arg2) = m ((c : Thread nD τ).loc main_arg2) := by
  show StableHlo.after hostOps0 (W0 m ρ c) _ = W0 m ρ c _
  kept_all hostOps0
theorem s1_arg3 : W1 m ρ c (Proc.devRef .tc main_arg3) = m ((c : Thread nD τ).loc main_arg3) := by
  show StableHlo.after hostOps0 (W0 m ρ c) _ = W0 m ρ c _
  kept_all hostOps0
theorem s1_arg4 : W1 m ρ c (Proc.devRef .tc main_arg4) = m ((c : Thread nD τ).loc main_arg4) := by
  show StableHlo.after hostOps0 (W0 m ρ c) _ = W0 m ρ c _
  kept_all hostOps0
theorem s1_arg5 : W1 m ρ c (Proc.devRef .tc main_arg5) = m ((c : Thread nD τ).loc main_arg5) := by
  show StableHlo.after hostOps0 (W0 m ρ c) _ = W0 m ρ c _
  kept_all hostOps0

/-! ## After the first launch: x · W1 -/

theorem s2_h1 (d0 : DotDims S100000x2 S2x64 S100000x64)
    (hl : d0.lhsContracting = [1]) (hr : d0.rhsContracting = [0]) (hln : d0.lhsNonContracting = [0])
    (hrn : d0.rhsNonContracting = [1]) (hlb : d0.lhsBatch = []) (hrb : d0.rhsBatch = []) :
    W2 m ρ c (Proc.devRef .tc main_v29)
      = Host.dotGeneral (F := Ideal) (φ₁ := .f32) (φ₂ := .f32) d0 none (m ((c : Thread nD τ).loc main_arg1)) (m ((c : Thread nD τ).loc main_arg2)) := by
  refine (W2_arr m ρ c 2).trans ?_
  refine (Cert.KernelIdeal.Region0.final0 (V1 m ρ) c d0 hl hr hln hrn hlb hrb).trans ?_
  show Host.dotGeneral (F := Ideal) (φ₁ := .f32) (φ₂ := .f32) d0 none (W1 m ρ c (Proc.devRef .tc main_arg1)) (W1 m ρ c (Proc.devRef .tc main_arg2)) = _
  rw [s1_arg1, s1_arg2]

/-- What the first launch does not write, it leaves. -/
theorem s2_src : W2 m ρ c (Proc.devRef .tc main_v3) = W1 m ρ c (Proc.devRef .tc main_v3) := W2_of_ne m ρ c main_v3 (by decide)
theorem s2_dst : W2 m ρ c (Proc.devRef .tc main_v6) = W1 m ρ c (Proc.devRef .tc main_v6) := W2_of_ne m ρ c main_v6 (by decide)
theorem s2_nrm : W2 m ρ c (Proc.devRef .tc main_v28) = W1 m ρ c (Proc.devRef .tc main_v28) := W2_of_ne m ρ c main_v28 (by decide)
theorem s2_arg3 : W2 m ρ c (Proc.devRef .tc main_arg3) = W1 m ρ c (Proc.devRef .tc main_arg3) := W2_of_ne m ρ c main_arg3 (by decide)
theorem s2_arg4 : W2 m ρ c (Proc.devRef .tc main_arg4) = W1 m ρ c (Proc.devRef .tc main_arg4) := W2_of_ne m ρ c main_arg4 (by decide)
theorem s2_arg5 : W2 m ρ c (Proc.devRef .tc main_arg5) = W1 m ρ c (Proc.devRef .tc main_arg5) := W2_of_ne m ρ c main_arg5 (by decide)

/-! ## After the second stretch of host operations: the first round of message passing, the bias as a row -/

theorem s3_agg : W3 m ρ c (Proc.devRef .tc main_v42)
    = agg64 (F := Ideal) (W2 m ρ c (Proc.devRef .tc main_v29)) (W2 m ρ c (Proc.devRef .tc main_v3))
        (W2 m ρ c (Proc.devRef .tc main_v6)) (W2 m ρ c (Proc.devRef .tc main_v28)) := by
  show StableHlo.after hostOps1 (W2 m ρ c) _ = _
  dsimp only [hostOps1]
  after_results_simp
  rfl

theorem s3_row : W3 m ρ c (Proc.devRef .tc main_v43)
    = shapeCast S1x64 (W2 m ρ c (Proc.devRef .tc main_arg3) : FVec Ideal S64 .f32) Facts₀.shapeCasts_S64_S1x64 := by
  show StableHlo.after hostOps1 (W2 m ρ c) _ = _
  dsimp only [hostOps1]
  after_results_simp
  rfl

theorem s3_src : W3 m ρ c (Proc.devRef .tc main_v3) = W2 m ρ c (Proc.devRef .tc main_v3) := by
  show StableHlo.after hostOps1 (W2 m ρ c) _ = _
  kept_all hostOps1
theorem s3_dst : W3 m ρ c (Proc.devRef .tc main_v6) = W2 m ρ c (Proc.devRef .tc main_v6) := by
  show StableHlo.after hostOps1 (W2 m ρ c) _ = _
  kept_all hostOps1
theorem s3_nrm : W3 m ρ c (Proc.devRef .tc main_v28) = W2 m ρ c (Proc.devRef .tc main_v28) := by
  show StableHlo.after hostOps1 (W2 m ρ c) _ = _
  kept_all hostOps1
theorem s3_arg4 : W3 m ρ c (Proc.devRef .tc main_arg4) = W2 m ρ c (Proc.devRef .tc main_arg4) := by
  show StableHlo.after hostOps1 (W2 m ρ c) _ = _
  kept_all hostOps1
theorem s3_arg5 : W3 m ρ c (Proc.devRef .tc main_arg5) = W2 m ρ c (Proc.devRef .tc main_arg5) := by
  show StableHlo.after hostOps1 (W2 m ρ c) _ = _
  kept_all hostOps1

/-! ## After the second launch: lrelu(a + b1) · W2 -/

theorem s4_h2 (d1 : DotDims S100000x64 S64x128 S100000x128)
    (hl : d1.lhsContracting = [1]) (hr : d1.rhsContracting = [0]) (hln : d1.lhsNonContracting = [0])
    (hrn : d1.rhsNonContracting = [1]) (hlb : d1.lhsBatch = []) (hrb : d1.rhsBatch = [])
    (hb : S1x64.BroadcastsInDim S100000x64 (![0, 1] : Fin 2 → Fin S100000x64.rank)) :
    W4 m ρ c (Proc.devRef .tc main_v44)
      = Host.dotGeneral (F := Ideal) (φ₁ := .f32) (φ₂ := .f32) d1 none
          (act64 (F := Ideal) hb (W3 m ρ c (Proc.devRef .tc main_v42)) (W3 m ρ c (Proc.devRef .tc main_v43)))
          (W3 m ρ c (Proc.devRef .tc main_arg4)) :=
  (W4_arr m ρ c 3).trans (Cert.KernelIdeal.Region1.final1 (V3 m ρ) c d1 hl hr hln hrn hlb hrb Facts₀.bcast_S_S100000x64 hb)

theorem s4_src : W4 m ρ c (Proc.devRef .tc main_v3) = W3 m ρ c (Proc.devRef .tc main_v3) := W4_of_ne m ρ c main_v3 (by decide)
theorem s4_dst : W4 m ρ c (Proc.devRef .tc main_v6) = W3 m ρ c (Proc.devRef .tc main_v6) := W4_of_ne m ρ c main_v6 (by decide)
theorem s4_nrm : W4 m ρ c (Proc.devRef .tc main_v28) = W3 m ρ c (Proc.devRef .tc main_v28) := W4_of_ne m ρ c main_v28 (by decide)
theorem s4_arg5 : W4 m ρ c (Proc.devRef .tc main_arg5) = W3 m ρ c (Proc.devRef .tc main_arg5) := W4_of_ne m ρ c main_arg5 (by decide)

/-! ## After the third stretch of host operations: the second round, the second bias as a row -/

theorem s5_agg : W5 m ρ c (Proc.devRef .tc main_v57)
    = agg128 (F := Ideal) (W4 m ρ c (Proc.devRef .tc main_v44)) (W4 m ρ c (Proc.devRef .tc main_v3))
        (W4 m ρ c (Proc.devRef .tc main_v6)) (W4 m ρ c (Proc.devRef .tc main_v28)) := by
  show StableHlo.after hostOps2 (W4 m ρ c) _ = _
  dsimp only [hostOps2]
  after_results_simp
  rfl

theorem s5_row : W5 m ρ c (Proc.devRef .tc main_v58)
    = shapeCast S1x128 (W4 m ρ c (Proc.devRef .tc main_arg5) : FVec Ideal S128 .f32) Facts₀.shapeCasts_S128_S1x128 := by
  show StableHlo.after hostOps2 (W4 m ρ c) _ = _
  dsimp only [hostOps2]
  after_results_simp
  rfl

/-! ## After the third launch: the result -/

theorem s6_out (hb : S1x128.BroadcastsInDim S100000x128 (![0, 1] : Fin 2 → Fin S100000x128.rank)) :
    W6 m ρ c (Proc.devRef .tc main_v59)
      = act128 (F := Ideal) hb (W5 m ρ c (Proc.devRef .tc main_v57)) (W5 m ρ c (Proc.devRef .tc main_v58)) :=
  (W6_arr m ρ c 2).trans (Cert.KernelIdeal.Region2.final2 (V5 m ρ) c Facts₀.bcast_S_S100000x128 hb)

/-- The kernel program's result array is the network of the six argument arrays, the bias vectors recast as rows. -/
theorem kernel_out (d0 : DotDims S100000x2 S2x64 S100000x64) (d1 : DotDims S100000x64 S64x128 S100000x128)
    (hl0 : d0.lhsContracting = [1]) (hr0 : d0.rhsContracting = [0]) (hln0 : d0.lhsNonContracting = [0])
    (hrn0 : d0.rhsNonContracting = [1]) (hlb0 : d0.lhsBatch = []) (hrb0 : d0.rhsBatch = [])
    (hl1 : d1.lhsContracting = [1]) (hr1 : d1.rhsContracting = [0]) (hln1 : d1.lhsNonContracting = [0])
    (hrn1 : d1.rhsNonContracting = [1]) (hlb1 : d1.lhsBatch = []) (hrb1 : d1.rhsBatch = [])
    (hb64 : S1x64.BroadcastsInDim S100000x64 (![0, 1] : Fin 2 → Fin S100000x64.rank))
    (hb128 : S1x128.BroadcastsInDim S100000x128 (![0, 1] : Fin 2 → Fin S100000x128.rank)) :
    W6 m ρ c (Proc.devRef .tc main_v59)
      = outOf (F := Ideal) d0 d1 hb64 hb128 (m ((c : Thread nD τ).loc main_arg0)) (m ((c : Thread nD τ).loc main_arg1))
          (m ((c : Thread nD τ).loc main_arg2))
          (shapeCast S1x64 (m ((c : Thread nD τ).loc main_arg3) : FVec Ideal S64 .f32) Facts₀.shapeCasts_S64_S1x64)
          (m ((c : Thread nD τ).loc main_arg4))
          (shapeCast S1x128 (m ((c : Thread nD τ).loc main_arg5) : FVec Ideal S128 .f32) Facts₀.shapeCasts_S128_S1x128) := by
  rw [s6_out m ρ c hb128, s5_agg, s5_row, s4_h2 m ρ c d1 hl1 hr1 hln1 hrn1 hlb1 hrb1 hb64, s4_src, s4_dst, s4_nrm, s4_arg5,
    s3_agg, s3_row, s3_src, s3_dst, s3_nrm, s3_arg4, s3_arg5, s2_h1 m ρ c d0 hl0 hr0 hln0 hrn0 hlb0 hrb0,
    s2_src, s2_dst, s2_nrm, s2_arg3, s2_arg4, s2_arg5, s1_src, s1_dst, s1_nrm, s1_arg3, s1_arg4, s1_arg5]
  rfl

end Cert.KernelIdeal.Out

end
-- ==== Proof.RefRun.lean ====
/-
  The reference program's run. @main of the reference is a host program with no kernel launch: a straight
  line of StableHLO operations and two calls of module-local functions (the leaky rectifier, once per width),
  each of which calls one more (the select). Written out at the calls — a callee's operations over the call's own buffers, in the
  callee's order, at the place of the call — it is the list `ops` of 92 operations below:

  * the edge list with one self-loop per node appended: the two rows of the 2 × 1600000 index array sliced,
    flattened and each concatenated with the iota 0 … 99999 (sources `%3`, destinations `%6`, 1700000 each);
  * the degrees by scatter-add: ones scattered by addition at the destinations into a zero vector of 100000,
    the maximum with one, the reciprocal square root (`%13`);
  * the symmetric normalisation: that vector gathered at the sources and at the destinations (a negative index
    wrapped by adding 100000 first: the compare, the add, the select), the two gathers multiplied (`%28`, one
    weight per edge);
  * two rounds — at widths 64 and 128 — of: the product with the weight matrix (`dot_general`), the gather
    of its rows at the sources, the scaling of each gathered row by its edge's weight (the weight broadcast
    along the row), the scatter-add of the scaled rows at the destinations into a zero matrix, the bias
    broadcast over the rows and added, and the leaky rectifier: `x ≥ 0` tested against a broadcast zero, the
    slope 0.01 converted to its own type (the identity) and broadcast, the product slope · x, and the select
    between `x` and that product (the inner call's one operation).

  `main_eq` says @main is that line (`StableHlo.seq`): the two windows' definitions, the functions' bodies
  and the sequencing reassociated, both sides are one chain of `hlo` steps. `run_main` is then the library's
  `StableHlo.run_seq`: every weakly fair execution on the TensorCores terminates, and every final state has
  each TensorCore buffer at the fold of the operations' results (`StableHlo.after`) over the launch contents.

  What this does not say: what the fold is at any buffer (a later module reads it back), and nothing about
  what the PureOps functions compute — the statements hold for any float values `F`.
-/
import proofs.«119203_j26809185861879_1_alg».proof.ReferenceIdeal
import proofs.«119203_j26809185861879_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 92 operations in program order: its own 78, and at each of its two calls the callee's six followed by
    the inner call's select, over that call's buffer record. -/
abbrev ops : List (HloOp τ sig (Elt F)) :=
  [ nullary main_v0 (iotaInDim S100000 32 0),
    unary main_arg0 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg0 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x3F800000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (maximumf : (⟨S100000, .f32⟩ : BufTy).Contents (Elt F) → (⟨S100000, .f32⟩ : BufTy).Contents (Elt F) → (⟨S100000, .f32⟩ : BufTy).Contents (Elt F)),
    unary main_v12 main_v13 (Host.rsqrt : (⟨S100000, .f32⟩ : BufTy).Contents (Elt F) → (⟨S100000, .f32⟩ : BufTy).Contents (Elt F)),
    nullary main_c (constantI S_ 32 0#32),
    unary main_c main_v14 (broadcastInDim S1700000 ![] bcast_S_S1700000 : (⟨S_, .i32⟩ : BufTy).Contents (Elt F) → (⟨S1700000, .i32⟩ : BufTy).Contents (Elt F)),
    binary main_v3 main_v14 main_v15 (cmpi .slt : (⟨S1700000, .i32⟩ : BufTy).Contents (Elt F) → (⟨S1700000, .i32⟩ : BufTy).Contents (Elt F) → (⟨S1700000, .i1⟩ : BufTy).Contents (Elt F)),
    nullary main_c_2 (constantI S_ 32 100000#32),
    unary main_c_2 main_v16 (broadcastInDim S1700000 ![] bcast_S_S1700000 : (⟨S_, .i32⟩ : BufTy).Contents (Elt F) → (⟨S1700000, .i32⟩ : BufTy).Contents (Elt F)),
    binary main_v3 main_v16 main_v17 (addi : (⟨S1700000, .i32⟩ : BufTy).Contents (Elt F) → (⟨S1700000, .i32⟩ : BufTy).Contents (Elt F) → (⟨S1700000, .i32⟩ : BufTy).Contents (Elt F)),
    ternary main_v15 main_v17 main_v3 main_v18 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v18 main_v19 (broadcastInDim S1700000x1 ![0] bcast_S1700000_S1700000x1_0 : (⟨S1700000, .i32⟩ : BufTy).Contents (Elt F) → (⟨S1700000x1, .i32⟩ : BufTy).Contents (Elt F)),
    binary main_v13 main_v19 main_v20 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_3 (constantI S_ 32 0#32),
    unary main_c_3 main_v21 (broadcastInDim S1700000 ![] bcast_S_S1700000 : (⟨S_, .i32⟩ : BufTy).Contents (Elt F) → (⟨S1700000, .i32⟩ : BufTy).Contents (Elt F)),
    binary main_v6 main_v21 main_v22 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (addi : (⟨S1700000, .i32⟩ : BufTy).Contents (Elt F) → (⟨S1700000, .i32⟩ : BufTy).Contents (Elt F) → (⟨S1700000, .i32⟩ : BufTy).Contents (Elt F)),
    ternary main_v22 main_v24 main_v6 main_v25 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v25 main_v26 (broadcastInDim S1700000x1 ![0] bcast_S1700000_S1700000x1_0 : (⟨S1700000, .i32⟩ : BufTy).Contents (Elt F) → (⟨S1700000x1, .i32⟩ : BufTy).Contents (Elt F)),
    binary main_v13 main_v26 main_v27 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v20 main_v27 main_v28 (mulf : (⟨S1700000, .f32⟩ : BufTy).Contents (Elt F) → (⟨S1700000, .f32⟩ : BufTy).Contents (Elt F) → (⟨S1700000, .f32⟩ : BufTy).Contents (Elt F)),
    binary main_arg1 main_arg2 main_v29 ((fun l r => Host.dotGeneral dot_S100000x2_S2x64_S100000x64_1_0_0_1_n_n none l r) : (⟨S100000x2, .f32⟩ : BufTy).Contents (Elt F) → (⟨S2x64, .f32⟩ : BufTy).Contents (Elt F) → (⟨S100000x64, .f32⟩ : BufTy).Contents (Elt F)),
    nullary main_c_5 (constantI S_ 32 0#32),
    unary main_c_5 main_v30 (broadcastInDim S1700000 ![] bcast_S_S1700000 : (⟨S_, .i32⟩ : BufTy).Contents (Elt F) → (⟨S1700000, .i32⟩ : BufTy).Contents (Elt F)),
    binary main_v3 main_v30 main_v31 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (addi : (⟨S1700000, .i32⟩ : BufTy).Contents (Elt F) → (⟨S1700000, .i32⟩ : BufTy).Contents (Elt F) → (⟨S1700000, .i32⟩ : BufTy).Contents (Elt F)),
    ternary main_v31 main_v33 main_v3 main_v34 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v34 main_v35 (broadcastInDim S1700000x1 ![0] bcast_S1700000_S1700000x1_0 : (⟨S1700000, .i32⟩ : BufTy).Contents (Elt F) → (⟨S1700000x1, .i32⟩ : BufTy).Contents (Elt F)),
    binary main_v29 main_v35 main_v36 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v28 main_v37 (broadcastInDim S1700000x1 ![0] bcast_S1700000_S1700000x1_0 : (⟨S1700000, .f32⟩ : BufTy).Contents (Elt F) → (⟨S1700000x1, .f32⟩ : BufTy).Contents (Elt F)),
    unary main_v37 main_v38 (broadcastInDim S1700000x64 ![0, 1] bcast_S1700000x1_S1700000x64_0_1 : (⟨S1700000x1, .f32⟩ : BufTy).Contents (Elt F) → (⟨S1700000x64, .f32⟩ : BufTy).Contents (Elt F)),
    binary main_v36 main_v38 main_v39 (mulf : (⟨S1700000x64, .f32⟩ : BufTy).Contents (Elt F) → (⟨S1700000x64, .f32⟩ : BufTy).Contents (Elt F) → (⟨S1700000x64, .f32⟩ : BufTy).Contents (Elt F)),
    nullary main_cst_7 (constant S_ .f32 0x00000000#32),
    unary main_cst_7 main_v40 (broadcastInDim S100000x64 ![] bcast_S_S100000x64 : (⟨S_, .f32⟩ : BufTy).Contents (Elt F) → (⟨S100000x64, .f32⟩ : BufTy).Contents (Elt F)),
    unary main_v6 main_v41 (broadcastInDim S1700000x1 ![0] bcast_S1700000_S1700000x1_0 : (⟨S1700000, .i32⟩ : BufTy).Contents (Elt F) → (⟨S1700000x1, .i32⟩ : BufTy).Contents (Elt F)),
    ternary main_v40 main_v41 main_v39 main_v42 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v43 (broadcastInDim S1x64 ![1] bcast_S64_S1x64_1 : (⟨S64, .f32⟩ : BufTy).Contents (Elt F) → (⟨S1x64, .f32⟩ : BufTy).Contents (Elt F)),
    unary main_v43 main_v44 (broadcastInDim S100000x64 ![0, 1] bcast_S1x64_S100000x64_0_1 : (⟨S1x64, .f32⟩ : BufTy).Contents (Elt F) → (⟨S100000x64, .f32⟩ : BufTy).Contents (Elt F)),
    binary main_v42 main_v44 main_v45 (addf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x3C23D70A#32),
    nullary main_call0_cst (constant S_ .f32 0x00000000#32),
    unary main_call0_cst main_call0_v0 (broadcastInDim S100000x64 ![] bcast_S_S100000x64 : (⟨S_, .f32⟩ : BufTy).Contents (Elt F) → (⟨S100000x64, .f32⟩ : BufTy).Contents (Elt F)),
    binary main_v45 main_call0_v0 main_call0_v1 (cmpf .oge : (⟨S100000x64, .f32⟩ : BufTy).Contents (Elt F) → (⟨S100000x64, .f32⟩ : BufTy).Contents (Elt F) → (⟨S100000x64, .i1⟩ : BufTy).Contents (Elt F)),
    unary main_cst_8 main_call0_v2 (id : (⟨S_, .f32⟩ : BufTy).Contents (Elt F) → (⟨S_, .f32⟩ : BufTy).Contents (Elt F)),
    unary main_call0_v2 main_call0_v3 (broadcastInDim S100000x64 ![] bcast_S_S100000x64 : (⟨S_, .f32⟩ : BufTy).Contents (Elt F) → (⟨S100000x64, .f32⟩ : BufTy).Contents (Elt F)),
    binary main_call0_v3 main_v45 main_call0_v4 (mulf : (⟨S100000x64, .f32⟩ : BufTy).Contents (Elt F) → (⟨S100000x64, .f32⟩ : BufTy).Contents (Elt F) → (⟨S100000x64, .f32⟩ : BufTy).Contents (Elt F)),
    ternary main_call0_v1 main_v45 main_call0_v4 main_v46 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    binary main_v46 main_arg4 main_v47 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    nullary main_c_9 (constantI S_ 32 0#32),
    unary main_c_9 main_v48 (broadcastInDim S1700000 ![] bcast_S_S1700000 : (⟨S_, .i32⟩ : BufTy).Contents (Elt F) → (⟨S1700000, .i32⟩ : BufTy).Contents (Elt F)),
    binary main_v3 main_v48 main_v49 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v50 (broadcastInDim S1700000 ![] bcast_S_S1700000 : (⟨S_, .i32⟩ : BufTy).Contents (Elt F) → (⟨S1700000, .i32⟩ : BufTy).Contents (Elt F)),
    binary main_v3 main_v50 main_v51 (addi : (⟨S1700000, .i32⟩ : BufTy).Contents (Elt F) → (⟨S1700000, .i32⟩ : BufTy).Contents (Elt F) → (⟨S1700000, .i32⟩ : BufTy).Contents (Elt F)),
    ternary main_v49 main_v51 main_v3 main_v52 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v52 main_v53 (broadcastInDim S1700000x1 ![0] bcast_S1700000_S1700000x1_0 : (⟨S1700000, .i32⟩ : BufTy).Contents (Elt F) → (⟨S1700000x1, .i32⟩ : BufTy).Contents (Elt F)),
    binary main_v47 main_v53 main_v54 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v28 main_v55 (broadcastInDim S1700000x1 ![0] bcast_S1700000_S1700000x1_0 : (⟨S1700000, .f32⟩ : BufTy).Contents (Elt F) → (⟨S1700000x1, .f32⟩ : BufTy).Contents (Elt F)),
    unary main_v55 main_v56 (broadcastInDim S1700000x128 ![0, 1] bcast_S1700000x1_S1700000x128_0_1 : (⟨S1700000x1, .f32⟩ : BufTy).Contents (Elt F) → (⟨S1700000x128, .f32⟩ : BufTy).Contents (Elt F)),
    binary main_v54 main_v56 main_v57 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v58 (broadcastInDim S100000x128 ![] bcast_S_S100000x128 : (⟨S_, .f32⟩ : BufTy).Contents (Elt F) → (⟨S100000x128, .f32⟩ : BufTy).Contents (Elt F)),
    unary main_v6 main_v59 (broadcastInDim S1700000x1 ![0] bcast_S1700000_S1700000x1_0 : (⟨S1700000, .i32⟩ : BufTy).Contents (Elt F) → (⟨S1700000x1, .i32⟩ : BufTy).Contents (Elt F)),
    ternary main_v58 main_v59 main_v57 main_v60 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v61 (broadcastInDim S1x128 ![1] bcast_S128_S1x128_1 : (⟨S128, .f32⟩ : BufTy).Contents (Elt F) → (⟨S1x128, .f32⟩ : BufTy).Contents (Elt F)),
    unary main_v61 main_v62 (broadcastInDim S100000x128 ![0, 1] bcast_S1x128_S100000x128_0_1 : (⟨S1x128, .f32⟩ : BufTy).Contents (Elt F) → (⟨S100000x128, .f32⟩ : BufTy).Contents (Elt F)),
    binary main_v60 main_v62 main_v63 (addf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3C23D70A#32),
    nullary main_call1_cst (constant S_ .f32 0x00000000#32),
    unary main_call1_cst main_call1_v0 (broadcastInDim S100000x128 ![] bcast_S_S100000x128 : (⟨S_, .f32⟩ : BufTy).Contents (Elt F) → (⟨S100000x128, .f32⟩ : BufTy).Contents (Elt F)),
    binary main_v63 main_call1_v0 main_call1_v1 (cmpf .oge : (⟨S100000x128, .f32⟩ : BufTy).Contents (Elt F) → (⟨S100000x128, .f32⟩ : BufTy).Contents (Elt F) → (⟨S100000x128, .i1⟩ : BufTy).Contents (Elt F)),
    unary main_cst_12 main_call1_v2 (id : (⟨S_, .f32⟩ : BufTy).Contents (Elt F) → (⟨S_, .f32⟩ : BufTy).Contents (Elt F)),
    unary main_call1_v2 main_call1_v3 (broadcastInDim S100000x128 ![] bcast_S_S100000x128 : (⟨S_, .f32⟩ : BufTy).Contents (Elt F) → (⟨S100000x128, .f32⟩ : BufTy).Contents (Elt F)),
    binary main_call1_v3 main_v63 main_call1_v4 (mulf : (⟨S100000x128, .f32⟩ : BufTy).Contents (Elt F) → (⟨S100000x128, .f32⟩ : BufTy).Contents (Elt F) → (⟨S100000x128, .f32⟩ : BufTy).Contents (Elt F)),
    ternary main_call1_v1 main_v63 main_call1_v4 main_v64 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) ]

-- 92 binds reassociated: the rewrite under the chain recurses once per statement, and walks the long chain
-- once per reassociation (ten times the default budget)
set_option maxRecDepth 4096 in
set_option maxHeartbeats 2000000 in
/-- @main is that straight line: the two windows and the functions' definitions unfolded at their calls, the
    records at their fields, both sides are one chain of `hlo` steps once sequencing is reassociated
    (`bind_assoc`, `pure_bind`); a callee's operation over typed references is the operation over the buffers
    themselves, the transport along a literal reference's type equation being the identity. -/
theorem main_eq (c : Dev nD) : main (F := F) c = seq ops := by
  simp only [main, main_part0, main_part1, fn_leaky_relu.body, fn_leaky_relu_0.body, fn_where.body, fn_where_1.body,
    seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only: one fact per operation, by its arity, in order. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.LibCastBcast.lean ====
/-
  A rank-1 array recast as a one-column or a one-row matrix is the same array as the one
  `broadcast_in_dim` makes of it along that axis: both read, at every index, the vector's entry at the
  index's one non-unit coordinate.
-/
import Idealize.ShloMosaic.Lib.Pipeline.Value
import Idealize.ShloMosaic.Lib.ValueIdx

namespace Cert.LibCastBcast

open Idealize.ShloMosaic Idealize.ShloMosaic.ValueIdx

variable {α : Type}

/-- An `[a]` vector recast to the column `[a, 1]` is its `broadcast_in_dim` along axis 0. -/
theorem column_cast_eq_bcast {a : ℕ} (x : (⟨1, ![a]⟩ : Shape).Idx → α)
    (h : (⟨1, ![a]⟩ : Shape).ShapeCasts ⟨2, ![a, 1]⟩)
    (h' : (⟨1, ![a]⟩ : Shape).BroadcastsInDim (⟨2, ![a, 1]⟩ : Shape) ![0]) :
    shapeCast ⟨2, ![a, 1]⟩ x h = broadcastInDim (⟨2, ![a, 1]⟩ : Shape) ![0] h' x := by
  funext j
  obtain ⟨p, u, rfl⟩ : ∃ (p : Fin a) (u : Fin 1), j = ix2 p u := ⟨j 0, j 1, eq_ix2 j⟩
  have hu : u.val = 0 := by omega
  refine (shapeCast_apply x h _ (ix1 p) ?_).trans (broadcastInDim_apply _ h' x _ (ix1 p) fun ax => ?_).symm
  · rw [Shape.rowMajor_val_two, Shape.rowMajor_val_one]
    show p.val = p.val * 1 + u.val
    rw [hu, Nat.mul_one, Nat.add_zero]
  · match ax with
    | ⟨0, _⟩ =>
      show p.val = if a = 1 then 0 else p.val
      split
      · have := p.isLt; omega
      · rfl

/-- A `[b]` vector recast to the row `[1, b]` is its `broadcast_in_dim` along axis 1. -/
theorem row_cast_eq_bcast {b : ℕ} (x : (⟨1, ![b]⟩ : Shape).Idx → α)
    (h : (⟨1, ![b]⟩ : Shape).ShapeCasts ⟨2, ![1, b]⟩)
    (h' : (⟨1, ![b]⟩ : Shape).BroadcastsInDim (⟨2, ![1, b]⟩ : Shape) ![1]) :
    shapeCast ⟨2, ![1, b]⟩ x h = broadcastInDim (⟨2, ![1, b]⟩ : Shape) ![1] h' x := by
  funext j
  obtain ⟨u, q, rfl⟩ : ∃ (u : Fin 1) (q : Fin b), j = ix2 u q := ⟨j 0, j 1, eq_ix2 j⟩
  have hu : u.val = 0 := by omega
  refine (shapeCast_apply x h _ (ix1 q) ?_).trans (broadcastInDim_apply _ h' x _ (ix1 q) fun ax => ?_).symm
  · rw [Shape.rowMajor_val_two, Shape.rowMajor_val_one]
    show q.val = u.val * b + q.val
    rw [hu, Nat.zero_mul, Nat.zero_add]
  · match ax with
    | ⟨0, _⟩ =>
      show q.val = if b = 1 then 0 else q.val
      split
      · have := q.isLt; omega
      · rfl

end Cert.LibCastBcast
-- ==== Proof.Bridge.lean ====
/-
  The two programs compute one function. The reference is a straight line of host operations whose composed term is
  the network 'Cert.Chain.outOf' of its six arguments, the two bias vectors laid out as rows by a broadcast; the kernel
  program's result array is the same network of its arguments, the bias vectors recast as rows. A vector recast as a
  one-row table is its broadcast along the column axis, so from arguments that agree the two results agree. No law of
  arithmetic is used: the products, the rounds of message passing and the rectifier are the same operations on both
  sides, a block of a product being the product of the block.
-/
import proofs.«119203_j26809185861879_1_alg».proof.Defs
import proofs.«119203_j26809185861879_1_alg».proof.Proof.Gen.Kernel.Frame
import proofs.«119203_j26809185861879_1_alg».proof.Proof.Gen.Pre_finite_inputs
import proofs.«119203_j26809185861879_1_alg».proof.Proof.KernelRun
import proofs.«119203_j26809185861879_1_alg».proof.Proof.KernelOut
import proofs.«119203_j26809185861879_1_alg».proof.Proof.RefRun
import proofs.«119203_j26809185861879_1_alg».proof.Proof.LibCastBcast
import proofs.«119203_j26809185861879_1_alg».proof.Proof.LibKeepAll

set_option maxRecDepth 16384

noncomputable section

namespace Cert.Bridge

open Idealize.ShloMosaic Idealize.ShloMosaic.TcCoe Idealize.SL.Sem Idealize.ShloMosaic.StableHlo
open Cert.LibKeepAll

/-- Running two lists one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! The reference's first seven operations make the edge sources and targets (two concatenations of a row of the edge
    table with the node numbers) and write no argument. -/

theorem ref_src (V : Valuation Cert.ReferenceIdeal.τ Cert.ReferenceIdeal.sig (Elt Ideal)) :
    after ((Cert.ReferenceIdeal.Hand.ops (F := Ideal)).take 7) V (Proc.devRef .tc Cert.ReferenceIdeal.main_v3) = Cert.Chain.srcOf (V (Proc.devRef .tc Cert.ReferenceIdeal.main_arg0)) := by
  simp only [Cert.ReferenceIdeal.Hand.ops, List.take_succ_cons, List.take_zero]
  after_results
  rfl
theorem ref_dst (V : Valuation Cert.ReferenceIdeal.τ Cert.ReferenceIdeal.sig (Elt Ideal)) :
    after ((Cert.ReferenceIdeal.Hand.ops (F := Ideal)).take 7) V (Proc.devRef .tc Cert.ReferenceIdeal.main_v6) = Cert.Chain.dstOf (V (Proc.devRef .tc Cert.ReferenceIdeal.main_arg0)) := by
  simp only [Cert.ReferenceIdeal.Hand.ops, List.take_succ_cons, List.take_zero]
  after_results
  rfl
theorem ref_pre_arg1 (V : Valuation Cert.ReferenceIdeal.τ Cert.ReferenceIdeal.sig (Elt Ideal)) :
    after ((Cert.ReferenceIdeal.Hand.ops (F := Ideal)).take 7) V (Proc.devRef .tc Cert.ReferenceIdeal.main_arg1) = V (Proc.devRef .tc Cert.ReferenceIdeal.main_arg1) := by
  simp only [Cert.ReferenceIdeal.Hand.ops, List.take_succ_cons, List.take_zero]
  after_results
theorem ref_pre_arg2 (V : Valuation Cert.ReferenceIdeal.τ Cert.ReferenceIdeal.sig (Elt Ideal)) :
    after ((Cert.ReferenceIdeal.Hand.ops (F := Ideal)).take 7) V (Proc.devRef .tc Cert.ReferenceIdeal.main_arg2) = V (Proc.devRef .tc Cert.ReferenceIdeal.main_arg2) := by
  simp only [Cert.ReferenceIdeal.Hand.ops, List.take_succ_cons, List.take_zero]
  after_results
theorem ref_pre_arg3 (V : Valuation Cert.ReferenceIdeal.τ Cert.ReferenceIdeal.sig (Elt Ideal)) :
    after ((Cert.ReferenceIdeal.Hand.ops (F := Ideal)).take 7) V (Proc.devRef .tc Cert.ReferenceIdeal.main_arg3) = V (Proc.devRef .tc Cert.ReferenceIdeal.main_arg3) := by
  simp only [Cert.ReferenceIdeal.Hand.ops, List.take_succ_cons, List.take_zero]
  after_results
theorem ref_pre_arg4 (V : Valuation Cert.ReferenceIdeal.τ Cert.ReferenceIdeal.sig (Elt Ideal)) :
    after ((Cert.ReferenceIdeal.Hand.ops (F := Ideal)).take 7) V (Proc.devRef .tc Cert.ReferenceIdeal.main_arg4) = V (Proc.devRef .tc Cert.ReferenceIdeal.main_arg4) := by
  simp only [Cert.ReferenceIdeal.Hand.ops, List.take_succ_cons, List.take_zero]
  after_results
theorem ref_pre_arg5 (V : Valuation Cert.ReferenceIdeal.τ Cert.ReferenceIdeal.sig (Elt Ideal)) :
    after ((Cert.ReferenceIdeal.Hand.ops (F := Ideal)).take 7) V (Proc.devRef .tc Cert.ReferenceIdeal.main_arg5) = V (Proc.devRef .tc Cert.ReferenceIdeal.main_arg5) := by
  simp only [Cert.ReferenceIdeal.Hand.ops, List.take_succ_cons, List.take_zero]
  after_results

set_option maxRecDepth 200000 in
set_option maxHeartbeats 16000000 in
/-- The reference's remaining operations, from contents holding the sources and the targets: the network. -/
theorem ref_rest (V : Valuation Cert.ReferenceIdeal.τ Cert.ReferenceIdeal.sig (Elt Ideal)) :
    after ((Cert.ReferenceIdeal.Hand.ops (F := Ideal)).drop 7) V (Proc.devRef .tc Cert.ReferenceIdeal.main_v64)
      = Cert.Chain.netOf (F := Ideal) Cert.ReferenceIdeal.dot_S100000x2_S2x64_S100000x64_1_0_0_1_n_n
          Cert.ReferenceIdeal.dot_S100000x64_S64x128_S100000x128_1_0_0_1_n_n
          Cert.ReferenceIdeal.Facts₀.bcast_S1x64_S100000x64_0_1 Cert.ReferenceIdeal.Facts₀.bcast_S1x128_S100000x128_0_1
          (V (Proc.devRef .tc Cert.ReferenceIdeal.main_v3)) (V (Proc.devRef .tc Cert.ReferenceIdeal.main_v6)) (V (Proc.devRef .tc Cert.ReferenceIdeal.main_arg1)) (V (Proc.devRef .tc Cert.ReferenceIdeal.main_arg2))
          (broadcastInDim Cert.ReferenceIdeal.S1x64 ![1] Cert.ReferenceIdeal.Facts₀.bcast_S64_S1x64_1 (V (Proc.devRef .tc Cert.ReferenceIdeal.main_arg3)))
          (V (Proc.devRef .tc Cert.ReferenceIdeal.main_arg4))
          (broadcastInDim Cert.ReferenceIdeal.S1x128 ![1] Cert.ReferenceIdeal.Facts₀.bcast_S128_S1x128_1 (V (Proc.devRef .tc Cert.ReferenceIdeal.main_arg5))) := by
  simp only [Cert.ReferenceIdeal.Hand.ops, List.drop_succ_cons, List.drop_zero]
  after_results_simp
  rfl

/-- The reference's result buffer after its operations: the network of the argument buffers. -/
theorem ref_out (V : Valuation Cert.ReferenceIdeal.τ Cert.ReferenceIdeal.sig (Elt Ideal)) :
    after (Cert.ReferenceIdeal.Hand.ops (F := Ideal)) V (Proc.devRef .tc Cert.ReferenceIdeal.main_v64)
      = Cert.Chain.outOf (F := Ideal) Cert.ReferenceIdeal.dot_S100000x2_S2x64_S100000x64_1_0_0_1_n_n
          Cert.ReferenceIdeal.dot_S100000x64_S64x128_S100000x128_1_0_0_1_n_n
          Cert.ReferenceIdeal.Facts₀.bcast_S1x64_S100000x64_0_1 Cert.ReferenceIdeal.Facts₀.bcast_S1x128_S100000x128_0_1
          (V (Proc.devRef .tc Cert.ReferenceIdeal.main_arg0)) (V (Proc.devRef .tc Cert.ReferenceIdeal.main_arg1)) (V (Proc.devRef .tc Cert.ReferenceIdeal.main_arg2))
          (broadcastInDim Cert.ReferenceIdeal.S1x64 ![1] Cert.ReferenceIdeal.Facts₀.bcast_S64_S1x64_1 (V (Proc.devRef .tc Cert.ReferenceIdeal.main_arg3)))
          (V (Proc.devRef .tc Cert.ReferenceIdeal.main_arg4))
          (broadcastInDim Cert.ReferenceIdeal.S1x128 ![1] Cert.ReferenceIdeal.Facts₀.bcast_S128_S1x128_1 (V (Proc.devRef .tc Cert.ReferenceIdeal.main_arg5))) := by
  rw [← List.take_append_drop 7 (Cert.ReferenceIdeal.Hand.ops (F := Ideal)), after_append, ref_rest, ref_src, ref_dst, ref_pre_arg1, ref_pre_arg2,
    ref_pre_arg3, ref_pre_arg4, ref_pre_arg5]
  rfl

/-- No operation of the reference writes an argument buffer. -/
theorem ref_arg0 (V : Valuation Cert.ReferenceIdeal.τ Cert.ReferenceIdeal.sig (Elt Ideal)) :
    after (Cert.ReferenceIdeal.Hand.ops (F := Ideal)) V (Proc.devRef .tc Cert.ReferenceIdeal.main_arg0) = V (Proc.devRef .tc Cert.ReferenceIdeal.main_arg0) := by
  kept_all Cert.ReferenceIdeal.Hand.ops
theorem ref_arg1 (V : Valuation Cert.ReferenceIdeal.τ Cert.ReferenceIdeal.sig (Elt Ideal)) :
    after (Cert.ReferenceIdeal.Hand.ops (F := Ideal)) V (Proc.devRef .tc Cert.ReferenceIdeal.main_arg1) = V (Proc.devRef .tc Cert.ReferenceIdeal.main_arg1) := by
  kept_all Cert.ReferenceIdeal.Hand.ops
theorem ref_arg2 (V : Valuation Cert.ReferenceIdeal.τ Cert.ReferenceIdeal.sig (Elt Ideal)) :
    after (Cert.ReferenceIdeal.Hand.ops (F := Ideal)) V (Proc.devRef .tc Cert.ReferenceIdeal.main_arg2) = V (Proc.devRef .tc Cert.ReferenceIdeal.main_arg2) := by
  kept_all Cert.ReferenceIdeal.Hand.ops
theorem ref_arg3 (V : Valuation Cert.ReferenceIdeal.τ Cert.ReferenceIdeal.sig (Elt Ideal)) :
    after (Cert.ReferenceIdeal.Hand.ops (F := Ideal)) V (Proc.devRef .tc Cert.ReferenceIdeal.main_arg3) = V (Proc.devRef .tc Cert.ReferenceIdeal.main_arg3) := by
  kept_all Cert.ReferenceIdeal.Hand.ops
theorem ref_arg4 (V : Valuation Cert.ReferenceIdeal.τ Cert.ReferenceIdeal.sig (Elt Ideal)) :
    after (Cert.ReferenceIdeal.Hand.ops (F := Ideal)) V (Proc.devRef .tc Cert.ReferenceIdeal.main_arg4) = V (Proc.devRef .tc Cert.ReferenceIdeal.main_arg4) := by
  kept_all Cert.ReferenceIdeal.Hand.ops
theorem ref_arg5 (V : Valuation Cert.ReferenceIdeal.τ Cert.ReferenceIdeal.sig (Elt Ideal)) :
    after (Cert.ReferenceIdeal.Hand.ops (F := Ideal)) V (Proc.devRef .tc Cert.ReferenceIdeal.main_arg5) = V (Proc.devRef .tc Cert.ReferenceIdeal.main_arg5) := by
  kept_all Cert.ReferenceIdeal.Hand.ops

/-- The reference's run, read: its result at the network of its arguments, its arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v64)
        = Cert.Chain.outOf (F := Ideal) Cert.ReferenceIdeal.dot_S100000x2_S2x64_S100000x64_1_0_0_1_n_n
            Cert.ReferenceIdeal.dot_S100000x64_S64x128_S100000x128_1_0_0_1_n_n
            Cert.ReferenceIdeal.Facts₀.bcast_S1x64_S100000x64_0_1 Cert.ReferenceIdeal.Facts₀.bcast_S1x128_S100000x128_0_1
            (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
            (broadcastInDim Cert.ReferenceIdeal.S1x64 ![1] Cert.ReferenceIdeal.Facts₀.bcast_S64_S1x64_1 (m ((c.tc : Thread Cert.ReferenceIdeal.nD Cert.ReferenceIdeal.τ).loc Cert.ReferenceIdeal.main_arg3)))
            (m ((c.tc : Thread Cert.ReferenceIdeal.nD Cert.ReferenceIdeal.τ).loc Cert.ReferenceIdeal.main_arg4))
            (broadcastInDim Cert.ReferenceIdeal.S1x128 ![1] Cert.ReferenceIdeal.Facts₀.bcast_S128_S1x128_1 (m ((c.tc : Thread Cert.ReferenceIdeal.nD Cert.ReferenceIdeal.τ).loc Cert.ReferenceIdeal.main_arg5)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5) :=
  (θ_run Cert.ReferenceIdeal.defs _ _).mono (fun _ h c =>
      ⟨(h c Cert.ReferenceIdeal.main_v64).trans (ref_out _), (h c Cert.ReferenceIdeal.main_arg0).trans (ref_arg0 _), (h c Cert.ReferenceIdeal.main_arg1).trans (ref_arg1 _),
        (h c Cert.ReferenceIdeal.main_arg2).trans (ref_arg2 _), (h c Cert.ReferenceIdeal.main_arg3).trans (ref_arg3 _), (h c Cert.ReferenceIdeal.main_arg4).trans (ref_arg4 _),
        (h c Cert.ReferenceIdeal.main_arg5).trans (ref_arg5 _)⟩)
    (Cert.ReferenceIdeal.Hand.run_main (F := Ideal) m ρ)

/-- The kernel program's run, read: its result at the same network of its arguments, the bias vectors recast as rows
    being their broadcasts; its arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v59)
        = Cert.Chain.outOf (F := Ideal) Cert.ReferenceIdeal.dot_S100000x2_S2x64_S100000x64_1_0_0_1_n_n
            Cert.ReferenceIdeal.dot_S100000x64_S64x128_S100000x128_1_0_0_1_n_n
            Cert.ReferenceIdeal.Facts₀.bcast_S1x64_S100000x64_0_1 Cert.ReferenceIdeal.Facts₀.bcast_S1x128_S100000x128_0_1
            (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
            (broadcastInDim Cert.ReferenceIdeal.S1x64 ![1] Cert.ReferenceIdeal.Facts₀.bcast_S64_S1x64_1 (m ((c.tc : Thread Cert.KernelIdeal.nD Cert.KernelIdeal.τ).loc Cert.KernelIdeal.main_arg3)))
            (m ((c.tc : Thread Cert.KernelIdeal.nD Cert.KernelIdeal.τ).loc Cert.KernelIdeal.main_arg4))
            (broadcastInDim Cert.ReferenceIdeal.S1x128 ![1] Cert.ReferenceIdeal.Facts₀.bcast_S128_S1x128_1 (m ((c.tc : Thread Cert.KernelIdeal.nD Cert.KernelIdeal.τ).loc Cert.KernelIdeal.main_arg5)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) :=
  (θ_run Cert.KernelIdeal.defs _ _).mono (fun _ h c => ⟨(h c).1.trans (by
        rw [Cert.KernelIdeal.Out.kernel_out m ρ c Cert.ReferenceIdeal.dot_S100000x2_S2x64_S100000x64_1_0_0_1_n_n
          Cert.ReferenceIdeal.dot_S100000x64_S64x128_S100000x128_1_0_0_1_n_n rfl rfl rfl rfl rfl rfl rfl rfl rfl rfl rfl rfl
          Cert.ReferenceIdeal.Facts₀.bcast_S1x64_S100000x64_0_1 Cert.ReferenceIdeal.Facts₀.bcast_S1x128_S100000x128_0_1,
          Cert.LibCastBcast.row_cast_eq_bcast _ _ Cert.ReferenceIdeal.Facts₀.bcast_S64_S1x64_1,
          Cert.LibCastBcast.row_cast_eq_bcast _ _ Cert.ReferenceIdeal.Facts₀.bcast_S128_S1x128_1]), (h c).2⟩)
    (Cert.KernelIdeal.Gen.run_named (F := Ideal) m ρ)

end Cert.Bridge

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.Bridge.ref_run m ρ)

/-- Both idealized programs end, from arguments that agree, with the network of the arguments in their result. -/
theorem algebraic : Cert.algebraic_KernelIdeal_ReferenceIdeal := by
  intro m ρ m' ρ' _ hagree
  refine ⟨_, Cert.Bridge.kernel_run m ρ, ?_⟩
  refine (θ_run Cert.ReferenceIdeal.defs _ _).mono (fun _ h c => ⟨(h c).1.trans ?_, (h c).2⟩) (Cert.Bridge.ref_run m' ρ')
  rw [(hagree c).1, (hagree c).2.1, (hagree c).2.2.1, (hagree c).2.2.2.1, (hagree c).2.2.2.2.1, (hagree c).2.2.2.2.2]

end Cert.Proof.Claims

end
-- ==== Proof.lean ====
/-
  The certificate of a two-layer graph network: x · W1, a round of degree-normalised message passing, bias and leaky
  rectifier, · W2, a second round, bias and leaky rectifier. The kernel program runs the two products and the two
  bias-and-rectifier steps as three launches over ten row blocks each and the rest as host operations; the reference
  runs everything as host operations. Over the extended reals a block of a product is the product of the block, so
  both programs end at one function of the arguments ('Cert.Chain.outOf'); the idealized kernel is the printed kernel
  read at the ideal instance, no operation rewritten.
-/
import proofs.«119203_j26809185861879_1_alg».proof.Defs
import proofs.«119203_j26809185861879_1_alg».proof.Proof.Gen.Kernel
import proofs.«119203_j26809185861879_1_alg».proof.Proof.Gen.KernelIdeal
import proofs.«119203_j26809185861879_1_alg».proof.Proof.Gen.ReferenceIdeal
import proofs.«119203_j26809185861879_1_alg».proof.Proof.Gen.Pre_finite_inputs
import proofs.«119203_j26809185861879_1_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, trivial, Cert.Proof.Claims.algebraic⟩

end Cert.Proof

end
